-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x8192 .f32) (main_arg2 : FVec F S8192 .f32) (main_arg3 : FVec F S8192x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S1x8192 : Shape := ⟨2, ![1, 8192]⟩
abbrev S1x2048 : Shape := ⟨2, ![1, 2048]⟩
abbrev S4096x8192 : Shape := ⟨2, ![4096, 8192]⟩
abbrev S512x2048 : Shape := ⟨2, ![512, 2048]⟩
abbrev S2048x2048 : Shape := ⟨2, ![2048, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S4096x2048, .bf16⟩
  | .hbm, ⟨6, _⟩ => ⟨S2048x8192, .bf16⟩
  | .hbm, ⟨7, _⟩ => ⟨S8192x2048, .bf16⟩
  | .hbm, ⟨8, _⟩ => ⟨S1x8192, .f32⟩
  | .hbm, ⟨9, _⟩ => ⟨S1x2048, .f32⟩
  | .hbm, ⟨10, _⟩ => ⟨S4096x8192, .bf16⟩
  | .hbm, ⟨11, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S8192_S1x8192 : S8192.ShapeCasts S1x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x2048_S2048x2048_S512x2048_1_0_0_1_n_n_wf : DotDims.WF S512x2048 S2048x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .bf16 = 32 ∨ (Rect.block (s := S4096x8192) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x8192.size a
  hwx1_0 : ∀ i : grid1.Coords, EltTy.bits .bf16 = 32 ∨ (Rect.block (s := S4096x8192) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x2048.size a
  hwx1_1 : ∀ i : grid1.Coords, EltTy.bits .bf16 = 32 ∨ (Rect.block (s := S8192x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x2048.size a
  hwx1_3 : ∀ i : grid1.Coords, EltTy.bits .f32 = 32 ∨ (Rect.block (s := S4096x2048) S512x1024.size (cc1_transform_3 i) (hinb1_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192, .f32⟩
  | .hbm, ⟨3, _⟩ => ⟨S8192x2048, .f32⟩
  | .hbm, ⟨4, _⟩ => ⟨S2048, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []
  dot_S4096x8192_S8192x2048_S4096x2048_1_0_0_1_n_n_wf : DotDims.WF S4096x8192 S8192x2048 S4096x2048 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.Kernel.Reg0.lean ====
/-
  The first matrix product's region, point by point.

  The grid has 8 × 4 points; at point t the body reads a block of 512 rows of x (all 2048 columns), a block of
  2048 columns of w1 (all 2048 rows) and the matching 2048 entries of b1, and stores one 512 × 2048 block of the
  hidden layer: the body's one store covers the output block, so what the block holds afterwards is that store's
  value, a function of the three input blocks alone. Stated for any float instance and any contents V of the
  buffers when the region is entered.
-/
import proofs.«119786_j49263274885468_1_alg».proof.Proof.Gen.Kernel.Launch
import proofs.«119786_j49263274885468_1_alg».proof.Proof.Gen.Kernel.Skeleton
import proofs.«119786_j49263274885468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-! ## What the body leaves in the output block -/

/-- The output block after the body, from the three input blocks: its one store. -/
def out0_3 (x0 : Vec F S512x2048 .bf16) (x1 : Vec F S2048x2048 .bf16) (x2 : Vec F S1x2048 .f32) : Vec F S512x2048 .bf16 :=
  View.canon [⟨r0_x, k0_pay1 (View.ld x0 r0_x) (View.ld x1 r0_w) (View.ld x2 r0_b)⟩]

/-- The store covers the block. -/
theorem cover0_3 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y

/-! ## The body's triple -/

set_option maxHeartbeats 4000000 in
/-- On whole staging buffers, the inputs' at contents `x0 x1 x2` and the output's at anything, the body runs to
    the continuation with the inputs as they were and the output block at `out0_3` of them. -/
theorem sound_kernel0 (c : Dev nD) (E : Set ℕ) (i : grid0.Coords)
    (arg2 : Memref sig .tc .vmem S512x2048 .bf16) (harg2 : arg2.IsWhole) (arg3 : Memref sig .tc .vmem S2048x2048 .bf16) (harg3 : arg3.IsWhole)
    (arg4 : Memref sig .tc .vmem S1x2048 .f32) (harg4 : arg4.IsWhole) (arg5 : Memref sig .tc .vmem S512x2048 .bf16) (harg5 : arg5.IsWhole)
    (x0 : Vec F S512x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each
    input's buffer at its block and the output's at `out0_3` of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Reg1.lean ====
/-
  The second matrix product's region, point by point.

  The grid has 8 × 2 × 4 points, the last axis running over four blocks of 2048 hidden units. At point t the body
  reads a 512 × 2048 block of the hidden layer and a 2048 × 1024 block of w2 and adds their product into a running
  sum it keeps in a buffer of its own from one point to the next: at the first block of four (t ≡ 0 mod 4) it first
  resets the sum to zero; at the last (t ≡ 3 mod 4) it adds the bias block to the sum, applies the logistic
  function and stores the result into the output block, which is written back only there. So a point is in one of
  three cases, and what the running sum holds after a point is a recursion on the point. Stated for any float
  instance and any contents V of the buffers when the region is entered.
-/
import proofs.«119786_j49263274885468_1_alg».proof.Proof.Gen.Kernel.Launch
import proofs.«119786_j49263274885468_1_alg».proof.Proof.Gen.Kernel.Skeleton
import proofs.«119786_j49263274885468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first of the four blocks": the reset is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last of the four blocks": the output is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cN0 (t : Fin cfg1.N) (h0 : ¬t.val % 4 = 0) : ¬cond1_0 (grid1.coords t) := fun h => h0 ((hcond1_0 t).mp h)
theorem cN1 (t : Fin cfg1.N) (h1 : ¬t.val % 4 = 3) : ¬cond1_1 (grid1.coords t) := fun h => h1 ((hcond1_1 t).mp h)
theorem cC1 (t : Fin cfg1.N) (h1 : t.val % 4 = 3) : cond1_1 (grid1.coords t) := (hcond1_1 t).mpr h1

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging buffers at a point, and the buffer of the running sum -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The buffer the body keeps its running sum in. -/
abbrev scM : Memref sig .tc .vmem S512x1024 .f32 := Memref.whole cc1_scratch0
abbrev VS : View sig .tc .vmem S512x1024 .f32 := scM.view
/-- One staging buffer of the output window, through which its contents are stated. -/
abbrev VO : View sig .tc .vmem S512x1024 .f32 := (Memref.whole cc1_stg3_0 : Memref sig .tc .vmem S512x1024 .f32).view

/-! ## The body's run, case by case -/

set_option maxHeartbeats 4000000 in
/-- First block of four: the sum is reset, then the block's product added; the output block is left as found.
    The pieces the running sum's buffer ends with are the witness the run finds. -/
noncomputable def kernelRun1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) :
    Σ' (L3 : List (View.Piece (Elt F) S512x1024 .f32)), { LS : List (View.Piece (Elt F) S512x1024 .f32) //
      ∀ (x2 : Vec F S1x1024 .f32) (xi : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨[], ?_, fun x2 xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block: the block's product is added to what the sum held; the output block is left as found. -/
noncomputable def kernelRun1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) :
    Σ' (L3 : List (View.Piece (Elt F) S512x1024 .f32)), { LS : List (View.Piece (Elt F) S512x1024 .f32) //
      ∀ (x2 : Vec F S1x1024 .f32) (xi : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨[], ?_, fun x2 xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- Last block of four: the block's product is added to what the sum held, and the output block is stored. -/
noncomputable def kernelRun1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) :
    Σ' (L3 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Fr

end
-- ==== Proof.Kernel.Reg1b.lean ====
/-
  The second matrix product's region: what the running sum and the output block hold after each point, the
  region's invariant (the running sum's buffer at the sum so far, every other buffer of the core's own at some
  contents), and the body's obligation at every point, by the three cases.
-/
import proofs.«119786_j49263274885468_1_alg».proof.Proof.Gen.Kernel.Launch
import proofs.«119786_j49263274885468_1_alg».proof.Proof.Gen.Kernel.Skeleton
import proofs.«119786_j49263274885468_1_alg».proof.Proof.Gen.Kernel.Points
import proofs.«119786_j49263274885468_1_alg».proof.Proof.Kernel.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's pieces cover the buffer they are stored into -/

theorem scover1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) (y : S512x1024.Idx) :
    ∃ pc ∈ (kernelRun1_A c i arg3 harg3 arg4 harg4 arg5 harg5 arg6 harg6 arg7 harg7 hc0 hc1 x0 x1).2.1, y ∈ pc.1.set :=
  View.cover_of_tiledL (kernelRun1_A c i arg3 harg3 arg4 harg4 arg5 harg5 arg6 harg6 arg7 harg7 hc0 hc1 x0 x1).2.1 S512x1024.size (by sl_kernel_rfl) y

/-- What the first case leaves in the running sum's buffer. -/
def sout1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) : Vec F S512x1024 .f32 :=
  VS.read (Elt F) (VS.writes (Elt F) VS.junk (kernelRun1_A c i arg3 harg3 arg4 harg4 arg5 harg5 arg6 harg6 arg7 harg7 hc0 hc1 x0 x1).2.1)

theorem scover1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) (y : S512x1024.Idx) :
    ∃ pc ∈ (kernelRun1_B c i arg3 harg3 arg4 harg4 arg5 harg5 arg6 harg6 arg7 harg7 hc0 hc1 x0 x1 xs).2.1, y ∈ pc.1.set :=
  View.cover_of_tiledL (kernelRun1_B c i arg3 harg3 arg4 harg4 arg5 harg5 arg6 harg6 arg7 harg7 hc0 hc1 x0 x1 xs).2.1 S512x1024.size (by sl_kernel_rfl) y

/-- What a middle case leaves in the running sum's buffer, over what it held. -/
def sout1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) : Vec F S512x1024 .f32 :=
  VS.read (Elt F) (VS.writes (Elt F) VS.junk (kernelRun1_B c i arg3 harg3 arg4 harg4 arg5 harg5 arg6 harg6 arg7 harg7 hc0 hc1 x0 x1 xs).2.1)

theorem scover1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) (y : S512x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S512x1024.size (by sl_kernel_rfl) y

/-- What the last case leaves in the running sum's buffer, over what it held. -/
def sout1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) : Vec F S512x1024 .f32 :=
  VS.read (Elt F) (VS.writes (Elt F) VS.junk (kernelRun1_C c i arg3 harg3 arg4 harg4 arg5 harg5 arg6 harg6 arg7 harg7 hc0 hc1 x0 x1 x2 xs).2.1)

theorem cover1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) (y : S512x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S512x1024.size (by sl_kernel_rfl) y

/-- What the last case leaves in the output block. -/
def out1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) : Vec F S512x1024 .f32 :=
  VO.read (Elt F) (VO.writes (Elt F) VO.junk (kernelRun1_C c i arg3 harg3 arg4 harg4 arg5 harg5 arg6 harg6 arg7 harg7 hc0 hc1 x0 x1 x2 xs).1)

/-! ## What the running sum and the output block hold after each point -/

/-- After the body at position `n`: the output block (meaningful at the last block of four only; elsewhere the
    window is idle and nothing consults it) and the running sum. By recursion on the position: the first case
    starts afresh, the other two go on from what the position before left. -/
def outsAt1 (c : Dev nD) : (n : ℕ) → n < cfg1.N → Vec F S512x1024 .f32 × Vec F S512x1024 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) (cA0 ⟨0, hn⟩ (Nat.zero_mod _)) (cA1 ⟨0, hn⟩ (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) (cA0 ⟨0, hn⟩ (Nat.zero_mod _)) (cA1 ⟨0, hn⟩ (Nat.zero_mod _)) (iblk1 V c 0 ⟨0, hn⟩) (iblk1 V c 1 ⟨0, hn⟩))
  | n + 1, hn =>
    if h0 : (n + 1) % 4 = 0 then
      (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cA0 ⟨n + 1, hn⟩ h0) (cA1 ⟨n + 1, hn⟩ h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cA0 ⟨n + 1, hn⟩ h0) (cA1 ⟨n + 1, hn⟩ h0) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cC1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cC1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cN1 ⟨n + 1, hn⟩ h1) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cN1 ⟨n + 1, hn⟩ h1) (iblk1 V c 0 ⟨n + 1, hn⟩) (iblk1 V c 1 ⟨n + 1, hn⟩) (outsAt1 c n (Nat.lt_of_succ_lt hn)).2)

/-- At a point of the first case: that case's contents. -/
theorem outsAt1_A (c : Dev nD) (t : Fin cfg1.N) (h0 : t.val % 4 = 0) :
    outsAt1 V c t.val t.isLt = (sout1_A c (grid1.coords t) (ms1_0 t) (hs1_0 t) (ms1_1 t) (hs1_1 t) (ms1_2 t) (hs1_2 t) (ms1_3 t) (hs1_3 t) scM (Memref.isWhole_whole _) (cA0 t h0) (cA1 t h0) (iblk1 V c 0 t) (iblk1 V c 1 t),
      sout1_A c (grid1.coords t) (ms1_0 t) (hs1_0 t) (ms1_1 t) (hs1_1 t) (ms1_2 t) (hs1_2 t) (ms1_3 t) (hs1_3 t) scM (Memref.isWhole_whole _) (cA0 t h0) (cA1 t h0) (iblk1 V c 0 t) (iblk1 V c 1 t)) := by
  obtain ⟨n, hn⟩ := t
  cases n with
  | zero => exact rfl
  | succ n => exact (dif_pos h0).trans rfl

/-- At a point of a middle case: that case's contents, over what the point before left. -/
theorem outsAt1_B (c : Dev nD) (t : Fin cfg1.N) (h0 : ¬t.val % 4 = 0) (h1 : ¬t.val % 4 = 3) :
    outsAt1 V c t.val t.isLt = (sout1_B c (grid1.coords t) (ms1_0 t) (hs1_0 t) (ms1_1 t) (hs1_1 t) (ms1_2 t) (hs1_2 t) (ms1_3 t) (hs1_3 t) scM (Memref.isWhole_whole _) (cN0 t h0) (cN1 t h1) (iblk1 V c 0 t) (iblk1 V c 1 t)
        (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM (Memref.isWhole_whole _) (cN0 t h0) (cN1 t h1) (iblk1 V c 0 t) (iblk1 V c 1 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of the last case: that case's contents, over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM (Memref.isWhole_whole _) (cN0 t h0) (cC1 t h1) (iblk1 V c 0 t) (iblk1 V c 1 t) (iblk1 V c 2 t)
        (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM (Memref.isWhole_whole _) (cN0 t h0) (cC1 t h1) (iblk1 V c 0 t) (iblk1 V c 1 t) (iblk1 V c 2 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- The core's own buffers other than this region's staging buffers and the running sum's — the other region's
    staging buffers — each whole at some contents, and the generator register at some state. -/
def restC (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ ∃ r, prngReg c r)

/-- What the launch hands the region splits into the running sum's buffer at some contents and the rest, -/
theorem PhiA_split (c : Dev nD) : (Pipeline.ΦA spec1 c : sProp 𝕄) ⊢ iprop((∃ d, owns (c : Thread nD τ) scM fullShare d) ∗ restC c) := by
  unfold Pipeline.ΦA restC; rw [scopedRest1_eq]; simp only [scM, owns_whole]
  iintro ⟨⟨R0, R1, R2, R3, R4, R5, R6, R7, HS⟩, Hg⟩
  isplitl [HS]; · iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexact Hg

/-- and is put together again from them. -/
theorem PhiA_join (c : Dev nD) : iprop((∃ d, owns (c : Thread nD τ) scM fullShare d) ∗ restC c) ⊢ (Pipeline.ΦA spec1 c : sProp 𝕄) := by
  unfold Pipeline.ΦA restC; rw [scopedRest1_eq]; simp only [scM, owns_whole]
  iintro ⟨HS, ⟨R0, R1, R2, R3, R4, R5, R6, R7⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

/-- The invariant before position `n`: before the first point what the launch hands over; afterwards the running
    sum's buffer at what the point before left, beside the rest. -/
def PhiS (c : Dev nD) : (n : ℕ) → n ≤ cfg1.N → sProp 𝕄
  | 0, _ => Pipeline.ΦA spec1 c
  | n + 1, hn => iprop(owns (c : Thread nD τ) scM fullShare ((outsAt1 V c n hn).2) ∗ restC c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt1 V c n hn).2) ∗ restC c) := rfl

theorem PhiS_pos (c : Dev nD) (n : ℕ) (h : n ≤ cfg1.N) (hz : n ≠ 0) :
    PhiS V c n h = iprop(owns (c : Thread nD τ) scM fullShare ((outsAt1 V c (n - 1) (by omega)).2) ∗ restC c) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.Kernel.Reg1c.lean ====
/-
  The second matrix product's region: the body's obligation at every point. The point's position modulo 4 says
  which of the three cases it is in; the invariant hands the body the running sum's buffer at what the point before
  left (at anything before the first point) and takes it back at this point's sum; away from the last block of four
  the output block is handed back as it was found.
-/
import proofs.«119786_j49263274885468_1_alg».proof.Proof.Gen.Kernel.Launch
import proofs.«119786_j49263274885468_1_alg».proof.Proof.Gen.Kernel.Skeleton
import proofs.«119786_j49263274885468_1_alg».proof.Proof.Gen.Kernel.Points
import proofs.«119786_j49263274885468_1_alg».proof.Proof.Kernel.Reg1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · rw [Dat.leavesExact_idle (dat1 V c) 3 t (idleAt1_3 t (cA1 t h0)) (noFlush1_3 t (cA1 t h0))]
    rw [outsAt1_A V c t h0]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HS, HR⟩
      iapply ((kernelRun1_A c (grid1.coords t) _ _ _ _ _ _ _ _ _ _ (cA0 t h0) (cA1 t h0) (iblk1 V c 0 t) (iblk1 V c 1 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_A c (grid1.coords t) _ _ _ _ _ _ _ _ _ _ (cA0 t h0) (cA1 t h0) (iblk1 V c 0 t) (iblk1 V c 1 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t (cC1 t h1)], after1_3]
      rw [outsAt1_C V c t h0 h1]
      unfold out1_C sout1_C; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_C c (grid1.coords t) _ _ _ _ _ _ _ _ _ _ (cN0 t h0) (cC1 t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (cN1 t h1)) (noFlush1_3 t (cN1 t h1))]
      rw [outsAt1_B V c t h0 h1]
      unfold sout1_B; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_B c (grid1.coords t) _ _ _ _ _ _ _ _ _ _ (cN0 t h0) (cN1 t h1) (iblk1 V c 0 t) (iblk1 V c 1 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point the invariant gives that back: the running sum's value is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht]
  have h : (iprop(owns (c : Thread nD τ) scM fullShare ((outsAt1 V c (t.val - 1) (by omega)).2) ∗ restC c) : sProp 𝕄)
      ⊢ iprop((∃ d, owns (c : Thread nD τ) scM fullShare d) ∗ restC c) := by
    iintro ⟨HS, HR⟩
    isplitl [HS]
    · iexists _; iexact HS
    iexact HR
  exact h.trans (PhiA_join (F := F) c)

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.Kernel.Fr

end
-- ==== Proof.Kernel.Run.lean ====
/-
  The whole program's run: the host operations that lay the inputs out (three changes of float format and two
  reshapes), then the first region, then the second, each entered from what the one before left.

  The contents of every buffer between two items are a fold from the launch memory: after the host operations,
  their results; after a region, that region's arrays at what its write-backs leave and every other buffer as it
  was. Every weakly fair execution terminates with every buffer at the fold's last stage; no item writes an
  argument array, so each argument ends as launched, and the result array ends at what the second region's
  write-backs leave. Stated for any float instance.
-/
import proofs.«119786_j49263274885468_1_alg».proof.Proof.Gen.Kernel.Launch
import proofs.«119786_j49263274885468_1_alg».proof.Proof.Gen.Kernel.Skeleton
import proofs.«119786_j49263274885468_1_alg».proof.Proof.Gen.Kernel.Points
import proofs.«119786_j49263274885468_1_alg».proof.Proof.Gen.Kernel.Regions
import proofs.«119786_j49263274885468_1_alg».proof.Proof.Kernel.Reg0
import proofs.«119786_j49263274885468_1_alg».proof.Proof.Kernel.Reg1c
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region (the end). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl

/-! ## The proof data family and the thread state -/

/-- Each region's proof data at its entry contents: a literal match on the region. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the
    contents after it; its arrays split out of the unscoped buffers and put back at the exit contents. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, and every unscoped buffer ends at
    the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named: it ends at what the second region's write-backs leave. -/
theorem run_result : θ_run defs (onTc (τ := τ) (main (F := F))) ⟨m, fun _ => 0, ρ⟩ (fun r => ∀ c : Dev nD,
      r.2.mem ((c.tc : Thread nD τ).loc main_v6) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Fr

end
-- ==== Proof.KernelIdeal.Reg0.lean ====
/-
  The first matrix product's region, point by point.

  The grid has 8 × 4 points; at point t the body reads a block of 512 rows of x (all 2048 columns), a block of
  2048 columns of w1 (all 2048 rows) and the matching 2048 entries of b1, and stores one 512 × 2048 block of the
  hidden layer: the body's one store covers the output block, so what the block holds afterwards is that store's
  value, a function of the three input blocks alone. Stated for any float instance and any contents V of the
  buffers when the region is entered.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-! ## What the body leaves in the output block -/

/-- The output block after the body, from the three input blocks: its one store. -/
def out0_3 (x0 : Vec F S512x2048 .bf16) (x1 : Vec F S2048x2048 .bf16) (x2 : Vec F S1x2048 .f32) : Vec F S512x2048 .bf16 :=
  View.canon [⟨r0_x, k0_pay1 (View.ld x0 r0_x) (View.ld x1 r0_w) (View.ld x2 r0_b)⟩]

/-- The store covers the block. -/
theorem cover0_3 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y

/-! ## The body's triple -/

set_option maxHeartbeats 4000000 in
/-- On whole staging buffers, the inputs' at contents `x0 x1 x2` and the output's at anything, the body runs to
    the continuation with the inputs as they were and the output block at `out0_3` of them. -/
theorem sound_kernel0 (c : Dev nD) (E : Set ℕ) (i : grid0.Coords)
    (arg2 : Memref sig .tc .vmem S512x2048 .bf16) (harg2 : arg2.IsWhole) (arg3 : Memref sig .tc .vmem S2048x2048 .bf16) (harg3 : arg3.IsWhole)
    (arg4 : Memref sig .tc .vmem S1x2048 .f32) (harg4 : arg4.IsWhole) (arg5 : Memref sig .tc .vmem S512x2048 .bf16) (harg5 : arg5.IsWhole)
    (x0 : Vec F S512x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core `c`: the arrays as the region finds them; after the body at point `t` each
    input's buffer at its block and the output's at `out0_3` of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Reg1.lean ====
/-
  The second matrix product's region, point by point.

  The grid has 8 × 2 × 4 points, the last axis running over four blocks of 2048 hidden units. At point t the body
  reads a 512 × 2048 block of the hidden layer and a 2048 × 1024 block of w2 and adds their product into a running
  sum it keeps in a buffer of its own from one point to the next: at the first block of four (t ≡ 0 mod 4) it first
  resets the sum to zero; at the last (t ≡ 3 mod 4) it adds the bias block to the sum, applies the logistic
  function and stores the result into the output block, which is written back only there. So a point is in one of
  three cases, and what the running sum holds after a point is a recursion on the point. Stated for any float
  instance and any contents V of the buffers when the region is entered.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first of the four blocks": the reset is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last of the four blocks": the output is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cN0 (t : Fin cfg1.N) (h0 : ¬t.val % 4 = 0) : ¬cond1_0 (grid1.coords t) := fun h => h0 ((hcond1_0 t).mp h)
theorem cN1 (t : Fin cfg1.N) (h1 : ¬t.val % 4 = 3) : ¬cond1_1 (grid1.coords t) := fun h => h1 ((hcond1_1 t).mp h)
theorem cC1 (t : Fin cfg1.N) (h1 : t.val % 4 = 3) : cond1_1 (grid1.coords t) := (hcond1_1 t).mpr h1

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging buffers at a point, and the buffer of the running sum -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The buffer the body keeps its running sum in. -/
abbrev scM : Memref sig .tc .vmem S512x1024 .f32 := Memref.whole cc1_scratch0
abbrev VS : View sig .tc .vmem S512x1024 .f32 := scM.view
/-- One staging buffer of the output window, through which its contents are stated. -/
abbrev VO : View sig .tc .vmem S512x1024 .f32 := (Memref.whole cc1_stg3_0 : Memref sig .tc .vmem S512x1024 .f32).view

/-! ## The body's run, case by case -/

set_option maxHeartbeats 4000000 in
/-- First block of four: the sum is reset, then the block's product added; the output block is left as found.
    The pieces the running sum's buffer ends with are the witness the run finds. -/
noncomputable def kernelRun1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) :
    Σ' (L3 : List (View.Piece (Elt F) S512x1024 .f32)), { LS : List (View.Piece (Elt F) S512x1024 .f32) //
      ∀ (x2 : Vec F S1x1024 .f32) (xi : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨[], ?_, fun x2 xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block: the block's product is added to what the sum held; the output block is left as found. -/
noncomputable def kernelRun1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) :
    Σ' (L3 : List (View.Piece (Elt F) S512x1024 .f32)), { LS : List (View.Piece (Elt F) S512x1024 .f32) //
      ∀ (x2 : Vec F S1x1024 .f32) (xi : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨[], ?_, fun x2 xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- Last block of four: the block's product is added to what the sum held, and the output block is stored. -/
noncomputable def kernelRun1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) :
    Σ' (L3 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__mm2_kernel i arg3 harg3 arg4 harg4 arg5 harg5 arg6 harg6 arg7 harg7) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Fr

end
-- ==== Proof.KernelIdeal.Reg1b.lean ====
/-
  The second matrix product's region: what the running sum and the output block hold after each point, the
  region's invariant (the running sum's buffer at the sum so far, every other buffer of the core's own at some
  contents), and the body's obligation at every point, by the three cases.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import proofs.«119786_j49263274885468_1_alg».proof.Proof.KernelIdeal.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's pieces cover the buffer they are stored into -/

theorem scover1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) (y : S512x1024.Idx) :
    ∃ pc ∈ (kernelRun1_A c i arg3 harg3 arg4 harg4 arg5 harg5 arg6 harg6 arg7 harg7 hc0 hc1 x0 x1).2.1, y ∈ pc.1.set :=
  View.cover_of_tiledL (kernelRun1_A c i arg3 harg3 arg4 harg4 arg5 harg5 arg6 harg6 arg7 harg7 hc0 hc1 x0 x1).2.1 S512x1024.size (by sl_kernel_rfl) y

/-- What the first case leaves in the running sum's buffer. -/
def sout1_A (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) : Vec F S512x1024 .f32 :=
  VS.read (Elt F) (VS.writes (Elt F) VS.junk (kernelRun1_A c i arg3 harg3 arg4 harg4 arg5 harg5 arg6 harg6 arg7 harg7 hc0 hc1 x0 x1).2.1)

theorem scover1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) (y : S512x1024.Idx) :
    ∃ pc ∈ (kernelRun1_B c i arg3 harg3 arg4 harg4 arg5 harg5 arg6 harg6 arg7 harg7 hc0 hc1 x0 x1 xs).2.1, y ∈ pc.1.set :=
  View.cover_of_tiledL (kernelRun1_B c i arg3 harg3 arg4 harg4 arg5 harg5 arg6 harg6 arg7 harg7 hc0 hc1 x0 x1 xs).2.1 S512x1024.size (by sl_kernel_rfl) y

/-- What a middle case leaves in the running sum's buffer, over what it held. -/
def sout1_B (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) : Vec F S512x1024 .f32 :=
  VS.read (Elt F) (VS.writes (Elt F) VS.junk (kernelRun1_B c i arg3 harg3 arg4 harg4 arg5 harg5 arg6 harg6 arg7 harg7 hc0 hc1 x0 x1 xs).2.1)

theorem scover1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) (y : S512x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S512x1024.size (by sl_kernel_rfl) y

/-- What the last case leaves in the running sum's buffer, over what it held. -/
def sout1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) : Vec F S512x1024 .f32 :=
  VS.read (Elt F) (VS.writes (Elt F) VS.junk (kernelRun1_C c i arg3 harg3 arg4 harg4 arg5 harg5 arg6 harg6 arg7 harg7 hc0 hc1 x0 x1 x2 xs).2.1)

theorem cover1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) (y : S512x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S512x1024.size (by sl_kernel_rfl) y

/-- What the last case leaves in the output block. -/
def out1_C (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) : Vec F S512x1024 .f32 :=
  VO.read (Elt F) (VO.writes (Elt F) VO.junk (kernelRun1_C c i arg3 harg3 arg4 harg4 arg5 harg5 arg6 harg6 arg7 harg7 hc0 hc1 x0 x1 x2 xs).1)

/-! ## What the running sum and the output block hold after each point -/

/-- After the body at position `n`: the output block (meaningful at the last block of four only; elsewhere the
    window is idle and nothing consults it) and the running sum. By recursion on the position: the first case
    starts afresh, the other two go on from what the position before left. -/
def outsAt1 (c : Dev nD) : (n : ℕ) → n < cfg1.N → Vec F S512x1024 .f32 × Vec F S512x1024 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) (cA0 ⟨0, hn⟩ (Nat.zero_mod _)) (cA1 ⟨0, hn⟩ (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) (cA0 ⟨0, hn⟩ (Nat.zero_mod _)) (cA1 ⟨0, hn⟩ (Nat.zero_mod _)) (iblk1 V c 0 ⟨0, hn⟩) (iblk1 V c 1 ⟨0, hn⟩))
  | n + 1, hn =>
    if h0 : (n + 1) % 4 = 0 then
      (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cA0 ⟨n + 1, hn⟩ h0) (cA1 ⟨n + 1, hn⟩ h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cA0 ⟨n + 1, hn⟩ h0) (cA1 ⟨n + 1, hn⟩ h0) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cC1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cC1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cN1 ⟨n + 1, hn⟩ h1) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) (cN0 ⟨n + 1, hn⟩ h0) (cN1 ⟨n + 1, hn⟩ h1) (iblk1 V c 0 ⟨n + 1, hn⟩) (iblk1 V c 1 ⟨n + 1, hn⟩) (outsAt1 c n (Nat.lt_of_succ_lt hn)).2)

/-- At a point of the first case: that case's contents. -/
theorem outsAt1_A (c : Dev nD) (t : Fin cfg1.N) (h0 : t.val % 4 = 0) :
    outsAt1 V c t.val t.isLt = (sout1_A c (grid1.coords t) (ms1_0 t) (hs1_0 t) (ms1_1 t) (hs1_1 t) (ms1_2 t) (hs1_2 t) (ms1_3 t) (hs1_3 t) scM (Memref.isWhole_whole _) (cA0 t h0) (cA1 t h0) (iblk1 V c 0 t) (iblk1 V c 1 t),
      sout1_A c (grid1.coords t) (ms1_0 t) (hs1_0 t) (ms1_1 t) (hs1_1 t) (ms1_2 t) (hs1_2 t) (ms1_3 t) (hs1_3 t) scM (Memref.isWhole_whole _) (cA0 t h0) (cA1 t h0) (iblk1 V c 0 t) (iblk1 V c 1 t)) := by
  obtain ⟨n, hn⟩ := t
  cases n with
  | zero => exact rfl
  | succ n => exact (dif_pos h0).trans rfl

/-- At a point of a middle case: that case's contents, over what the point before left. -/
theorem outsAt1_B (c : Dev nD) (t : Fin cfg1.N) (h0 : ¬t.val % 4 = 0) (h1 : ¬t.val % 4 = 3) :
    outsAt1 V c t.val t.isLt = (sout1_B c (grid1.coords t) (ms1_0 t) (hs1_0 t) (ms1_1 t) (hs1_1 t) (ms1_2 t) (hs1_2 t) (ms1_3 t) (hs1_3 t) scM (Memref.isWhole_whole _) (cN0 t h0) (cN1 t h1) (iblk1 V c 0 t) (iblk1 V c 1 t)
        (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM (Memref.isWhole_whole _) (cN0 t h0) (cN1 t h1) (iblk1 V c 0 t) (iblk1 V c 1 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of the last case: that case's contents, over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM (Memref.isWhole_whole _) (cN0 t h0) (cC1 t h1) (iblk1 V c 0 t) (iblk1 V c 1 t) (iblk1 V c 2 t)
        (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM (Memref.isWhole_whole _) (cN0 t h0) (cC1 t h1) (iblk1 V c 0 t) (iblk1 V c 1 t) (iblk1 V c 2 t)
        (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- The core's own buffers other than this region's staging buffers and the running sum's — the other region's
    staging buffers — each whole at some contents, and the generator register at some state. -/
def restC (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ ∃ r, prngReg c r)

/-- What the launch hands the region splits into the running sum's buffer at some contents and the rest, -/
theorem PhiA_split (c : Dev nD) : (Pipeline.ΦA spec1 c : sProp 𝕄) ⊢ iprop((∃ d, owns (c : Thread nD τ) scM fullShare d) ∗ restC c) := by
  unfold Pipeline.ΦA restC; rw [scopedRest1_eq]; simp only [scM, owns_whole]
  iintro ⟨⟨R0, R1, R2, R3, R4, R5, R6, R7, HS⟩, Hg⟩
  isplitl [HS]; · iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexact Hg

/-- and is put together again from them. -/
theorem PhiA_join (c : Dev nD) : iprop((∃ d, owns (c : Thread nD τ) scM fullShare d) ∗ restC c) ⊢ (Pipeline.ΦA spec1 c : sProp 𝕄) := by
  unfold Pipeline.ΦA restC; rw [scopedRest1_eq]; simp only [scM, owns_whole]
  iintro ⟨HS, ⟨R0, R1, R2, R3, R4, R5, R6, R7⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

/-- The invariant before position `n`: before the first point what the launch hands over; afterwards the running
    sum's buffer at what the point before left, beside the rest. -/
def PhiS (c : Dev nD) : (n : ℕ) → n ≤ cfg1.N → sProp 𝕄
  | 0, _ => Pipeline.ΦA spec1 c
  | n + 1, hn => iprop(owns (c : Thread nD τ) scM fullShare ((outsAt1 V c n hn).2) ∗ restC c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt1 V c n hn).2) ∗ restC c) := rfl

theorem PhiS_pos (c : Dev nD) (n : ℕ) (h : n ≤ cfg1.N) (hz : n ≠ 0) :
    PhiS V c n h = iprop(owns (c : Thread nD τ) scM fullShare ((outsAt1 V c (n - 1) (by omega)).2) ∗ restC c) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.KernelIdeal.Reg1c.lean ====
/-
  The second matrix product's region: the body's obligation at every point. The point's position modulo 4 says
  which of the three cases it is in; the invariant hands the body the running sum's buffer at what the point before
  left (at anything before the first point) and takes it back at this point's sum; away from the last block of four
  the output block is handed back as it was found.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import proofs.«119786_j49263274885468_1_alg».proof.Proof.KernelIdeal.Reg1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · rw [Dat.leavesExact_idle (dat1 V c) 3 t (idleAt1_3 t (cA1 t h0)) (noFlush1_3 t (cA1 t h0))]
    rw [outsAt1_A V c t h0]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HS, HR⟩
      iapply ((kernelRun1_A c (grid1.coords t) _ _ _ _ _ _ _ _ _ _ (cA0 t h0) (cA1 t h0) (iblk1 V c 0 t) (iblk1 V c 1 t)).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_A c (grid1.coords t) _ _ _ _ _ _ _ _ _ _ (cA0 t h0) (cA1 t h0) (iblk1 V c 0 t) (iblk1 V c 1 t)).2.2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t (cC1 t h1)], after1_3]
      rw [outsAt1_C V c t h0 h1]
      unfold out1_C sout1_C; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_C c (grid1.coords t) _ _ _ _ _ _ _ _ _ _ (cN0 t h0) (cC1 t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (cN1 t h1)) (noFlush1_3 t (cN1 t h1))]
      rw [outsAt1_B V c t h0 h1]
      unfold sout1_B; (try dsimp only)
      rw [PhiS_castSucc V c t, PhiS_pos V c _ _ hz]
      iintro ⟨⟨HS, HR⟩, Ho, ⟨%d0, H0⟩, ⟨%d1, H1⟩, ⟨%d2, H2⟩, ⟨%d3, H3⟩⟩
      iapply ((kernelRun1_B c (grid1.coords t) _ _ _ _ _ _ _ _ _ _ (cN0 t h0) (cN1 t h1) (iblk1 V c 0 t) (iblk1 V c 1 t) _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point the invariant gives that back: the running sum's value is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht]
  have h : (iprop(owns (c : Thread nD τ) scM fullShare ((outsAt1 V c (t.val - 1) (by omega)).2) ∗ restC c) : sProp 𝕄)
      ⊢ iprop((∃ d, owns (c : Thread nD τ) scM fullShare d) ∗ restC c) := by
    iintro ⟨HS, HR⟩
    isplitl [HS]
    · iexists _; iexact HS
    iexact HR
  exact h.trans (PhiA_join (F := F) c)

theorem hout1 (c : Dev nD) : (dat1 V c).Φ (Fin.last cfg1.N) ⊢ (Pipeline.ΦA spec1 c : sProp 𝕄) :=
  Phi_out1 V c _ (by rw [Fin.val_last]; have : cfg1.N = 64 := N_1; omega)

end Cert.KernelIdeal.Fr

end
-- ==== Proof.KernelIdeal.Run.lean ====
/-
  The whole program's run: the host operations that lay the inputs out (three changes of float format and two
  reshapes), then the first region, then the second, each entered from what the one before left.

  The contents of every buffer between two items are a fold from the launch memory: after the host operations,
  their results; after a region, that region's arrays at what its write-backs leave and every other buffer as it
  was. Every weakly fair execution terminates with every buffer at the fold's last stage; no item writes an
  argument array, so each argument ends as launched, and the result array ends at what the second region's
  write-backs leave. Stated for any float instance.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import proofs.«119786_j49263274885468_1_alg».proof.Proof.Gen.KernelIdeal.Regions
import proofs.«119786_j49263274885468_1_alg».proof.Proof.KernelIdeal.Reg0
import proofs.«119786_j49263274885468_1_alg».proof.Proof.KernelIdeal.Reg1c
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region (the end). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl

/-! ## The proof data family and the thread state -/

/-- Each region's proof data at its entry contents: a literal match on the region. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the
    contents after it; its arrays split out of the unscoped buffers and put back at the exit contents. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, and every unscoped buffer ends at
    the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named: it ends at what the second region's write-backs leave. -/
theorem run_result : θ_run defs (onTc (τ := τ) (main (F := F))) ⟨m, fun _ => 0, ρ⟩ (fun r => ∀ c : Dev nD,
      r.2.mem ((c.tc : Thread nD τ).loc main_v6) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.Payload.lean ====
/-
  The kernel bodies' arithmetic, read at one index, over the extended reals.

  The first body computes, for a block of 512 rows of x, 2048 columns of w1 and the matching 2048 entries of b1,
  the rectified affine form  max (Σ_l x[p, l] · w[l, q] + b[0, q]) 0  (changes of float format are the identity here).
  The second body keeps a running sum: it starts from zero, adds a block's partial product
  Σ_l h[p, l] · w[l, q]  to what it holds, and at the last block adds the bias and applies the logistic function.
-/
import proofs.«119786_j49263274885468_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two matrix products at an index

A product of a [512, 2048] block with a [2048, n] block contracts the left operand's second axis against the right
operand's first. At the output index (p, q) and contraction coordinate l the left operand is read at (p, l) and the
right one at (l, q); the four coordinate facts below say so, and the product into a zero accumulator is then the plain
sum  Σ_l x[p, l] · w[l, q]. -/

private theorem lhsA_0 (i : S512x2048.Idx) (c : dot_S512x2048_S2048x2048_S512x2048_1_0_0_1_n_n.contr.Idx) :
    (dot_S512x2048_S2048x2048_S512x2048_1_0_0_1_n_n.lhsIdx i c 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
private theorem lhsA_1 (i : S512x2048.Idx) (c : dot_S512x2048_S2048x2048_S512x2048_1_0_0_1_n_n.contr.Idx) :
    (dot_S512x2048_S2048x2048_S512x2048_1_0_0_1_n_n.lhsIdx i c 1).val = (c ⟨0, by decide⟩).val :=
  dot_S512x2048_S2048x2048_S512x2048_1_0_0_1_n_n.lhsIdx_val_of_single rfl i c
private theorem rhsA_0 (i : S512x2048.Idx) (c : dot_S512x2048_S2048x2048_S512x2048_1_0_0_1_n_n.contr.Idx) :
    (dot_S512x2048_S2048x2048_S512x2048_1_0_0_1_n_n.rhsIdx i c 0).val = (c ⟨0, by decide⟩).val :=
  dot_S512x2048_S2048x2048_S512x2048_1_0_0_1_n_n.rhsIdx_val_of_single rfl i c
private theorem rhsA_1 (i : S512x2048.Idx) (c : dot_S512x2048_S2048x2048_S512x2048_1_0_0_1_n_n.contr.Idx) :
    (dot_S512x2048_S2048x2048_S512x2048_1_0_0_1_n_n.rhsIdx i c 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The first body's product, [512, 2048] × [2048, 2048], into zero. -/
private theorem prodA_apply (x : FVec Ideal S512x2048 .bf16) (w : FVec Ideal S2048x2048 .bf16) (p : Fin 512) (q : Fin 2048) :
    matmul dot_S512x2048_S2048x2048_S512x2048_1_0_0_1_n_n none x w (constant (F := Ideal) S512x2048 .f32 0x00000000#32) (ix2 p q)
      = ∑ l : Fin 2048, x (ix2 p l) * w (ix2 l q) := by
  simp only [matmul]
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun a => Fin.ext (by
    match a with
    | ⟨0, _⟩ => exact lhsA_0 _ _
    | ⟨1, _⟩ => exact (lhsA_1 _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

private theorem lhsB_0 (i : S512x1024.Idx) (c : dot_S512x2048_S2048x1024_S512x1024_1_0_0_1_n_n.contr.Idx) :
    (dot_S512x2048_S2048x1024_S512x1024_1_0_0_1_n_n.lhsIdx i c 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
private theorem lhsB_1 (i : S512x1024.Idx) (c : dot_S512x2048_S2048x1024_S512x1024_1_0_0_1_n_n.contr.Idx) :
    (dot_S512x2048_S2048x1024_S512x1024_1_0_0_1_n_n.lhsIdx i c 1).val = (c ⟨0, by decide⟩).val :=
  dot_S512x2048_S2048x1024_S512x1024_1_0_0_1_n_n.lhsIdx_val_of_single rfl i c
private theorem rhsB_0 (i : S512x1024.Idx) (c : dot_S512x2048_S2048x1024_S512x1024_1_0_0_1_n_n.contr.Idx) :
    (dot_S512x2048_S2048x1024_S512x1024_1_0_0_1_n_n.rhsIdx i c 0).val = (c ⟨0, by decide⟩).val :=
  dot_S512x2048_S2048x1024_S512x1024_1_0_0_1_n_n.rhsIdx_val_of_single rfl i c
private theorem rhsB_1 (i : S512x1024.Idx) (c : dot_S512x2048_S2048x1024_S512x1024_1_0_0_1_n_n.contr.Idx) :
    (dot_S512x2048_S2048x1024_S512x1024_1_0_0_1_n_n.rhsIdx i c 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The second body's product, [512, 2048] × [2048, 1024], into zero. -/
private theorem prodB_apply (x : FVec Ideal S512x2048 .bf16) (w : FVec Ideal S2048x1024 .bf16) (p : Fin 512) (q : Fin 1024) :
    matmul dot_S512x2048_S2048x1024_S512x1024_1_0_0_1_n_n none x w (constant (F := Ideal) S512x1024 .f32 0x00000000#32) (ix2 p q)
      = ∑ l : Fin 2048, x (ix2 p l) * w (ix2 l q) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact lhsB_0 _ _
    | ⟨1, _⟩ => exact (lhsB_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (rhsB_0 _ _).trans hk
    | ⟨1, _⟩ => exact rhsB_1 _ _)
  rw [el, er]

/-! ## The four stored values -/

/-- The logistic function applied to a block reads, at an index, the logistic function of the element there. -/
private theorem logistic_apply {s : Shape} {φ : FTy} (a : FVec Ideal s φ) (i : s.Idx) :
    logistic a i = Ideal.logistic (a i) := rfl

/-- The first body's stored value at row `p`, column `q` of its block. -/
theorem hidden_apply (x : Vec Ideal S512x2048 .bf16) (w : Vec Ideal S2048x2048 .bf16) (b : Vec Ideal S1x2048 .f32)
    (p : Fin 512) (q : Fin 2048) :
    k0_pay1 (F := Ideal) x w b (ix2 p q)
      = max ((∑ l : Fin 2048, x (ix2 p l) * w (ix2 l q)) + b (ix2 (0 : Fin 1) q)) 0 := by
  unfold k0_pay1
  simp only [shapeCast_self]
  rw [truncf_apply, maximumf_apply, addf_apply, broadcast_apply, prodA_apply, broadcastTo_1b_ab_apply]
  show max _ (Ideal.ofBits .f32 0x00000000#32) = _
  rw [Ideal.ofBits_zero_f32]

/-- The second body's reset value is zero everywhere. -/
theorem zero_apply (p : Fin 512) (q : Fin 1024) : k1_pay1 (F := Ideal) (ix2 p q) = 0 := by
  unfold k1_pay1
  simp only [shapeCast_self]
  rw [broadcast_apply]
  show Ideal.ofBits .f32 0x00000000#32 = 0
  exact Ideal.ofBits_zero_f32

/-- The second body's running sum after one more block: what it held plus the block's partial product. -/
theorem acc_apply (x : Vec Ideal S512x2048 .bf16) (w : Vec Ideal S2048x1024 .bf16) (a : Vec Ideal S512x1024 .f32)
    (p : Fin 512) (q : Fin 1024) :
    k1_pay2 (F := Ideal) x w a (ix2 p q) = a (ix2 p q) + ∑ l : Fin 2048, x (ix2 p l) * w (ix2 l q) := by
  unfold k1_pay2
  simp only [shapeCast_self]
  rw [addf_apply, prodB_apply]

/-- The second body's output at the last block: the logistic function of the running sum plus the bias. -/
theorem out_apply (a : Vec Ideal S512x1024 .f32) (b : Vec Ideal S1x1024 .f32) (p : Fin 512) (q : Fin 1024) :
    k1_pay3 (F := Ideal) a b (ix2 p q) = Ideal.logistic (a (ix2 p q) + b (ix2 (0 : Fin 1) q)) := by
  unfold k1_pay3
  simp only [shapeCast_self]
  rw [logistic_apply, addf_apply, broadcastTo_1b_ab_apply]

end Cert.KernelIdeal.Pay

end
-- ==== Proof.Spec.lean ====
/-
  The function both programs compute, over the extended reals, index by index.

  For inputs x : [4096, 2048], w1 : [2048, 8192], b1 : [8192], w2 : [8192, 2048], b2 : [2048]:

    hidden p k = max (Σ_{l < 2048} x[p, l] · w1[l, k] + b1[k]) 0          (a linear layer and a rectifier)
    result[p, q] = logistic (Σ_{k < 8192} hidden p k · w2[k, q] + b2[q])    (a second linear layer and a sigmoid)

  and the one law of sums the comparison needs: a sum over 8192 terms is the sum of its four consecutive
  partial sums of 2048 terms, taken in order and started from zero (addition on the extended reals is
  commutative and associative, so no finiteness is needed).
-/
import Idealize.ShloMosaic.PureOps.Ideal
import Idealize.ShloMosaic.Lib.ValueIdx

noncomputable section

open scoped BigOperators

namespace Cert.Spec

open Idealize.ShloMosaic Idealize.ShloMosaic.ValueIdx

/-- The hidden layer at row `p` and hidden unit `k`: the rectified affine form of row `p` of `x`. -/
def hidden (x : (⟨2, ![4096, 2048]⟩ : Shape).Idx → EReal) (w1 : (⟨2, ![2048, 8192]⟩ : Shape).Idx → EReal)
    (b1 : (⟨1, ![8192]⟩ : Shape).Idx → EReal) (p : Fin 4096) (k : Fin 8192) : EReal :=
  max ((∑ l : Fin 2048, x (ix2 p l) * w1 (ix2 l k)) + b1 (ix1 k)) 0

/-- The network's output at row `p` and column `q`. -/
def out (x : (⟨2, ![4096, 2048]⟩ : Shape).Idx → EReal) (w1 : (⟨2, ![2048, 8192]⟩ : Shape).Idx → EReal)
    (b1 : (⟨1, ![8192]⟩ : Shape).Idx → EReal) (w2 : (⟨2, ![8192, 2048]⟩ : Shape).Idx → EReal)
    (b2 : (⟨1, ![2048]⟩ : Shape).Idx → EReal) (p : Fin 4096) (q : Fin 2048) : EReal :=
  Ideal.logistic ((∑ k : Fin 8192, hidden x w1 b1 p k * w2 (ix2 k q)) + b2 (ix1 q))

/-- The output array: `out` at the two coordinates of the index. -/
def result (x : (⟨2, ![4096, 2048]⟩ : Shape).Idx → EReal) (w1 : (⟨2, ![2048, 8192]⟩ : Shape).Idx → EReal)
    (b1 : (⟨1, ![8192]⟩ : Shape).Idx → EReal) (w2 : (⟨2, ![8192, 2048]⟩ : Shape).Idx → EReal)
    (b2 : (⟨1, ![2048]⟩ : Shape).Idx → EReal) : (⟨2, ![4096, 2048]⟩ : Shape).Idx → EReal :=
  fun i => out x w1 b1 w2 b2 ⟨(i 0).val, idx2_lt0 i⟩ ⟨(i 1).val, idx2_lt1 i⟩

theorem result_ix2 (x : (⟨2, ![4096, 2048]⟩ : Shape).Idx → EReal) (w1 : (⟨2, ![2048, 8192]⟩ : Shape).Idx → EReal)
    (b1 : (⟨1, ![8192]⟩ : Shape).Idx → EReal) (w2 : (⟨2, ![8192, 2048]⟩ : Shape).Idx → EReal)
    (b2 : (⟨1, ![2048]⟩ : Shape).Idx → EReal) (p : Fin 4096) (q : Fin 2048) :
    result x w1 b1 w2 b2 (ix2 p q) = out x w1 b1 w2 b2 p q := rfl

/-- A sum over `a + b` terms is the sum of its first `a` terms plus the sum of its last `b` terms. -/
private theorem sum_two_blocks {n : ℕ} (a b : ℕ) (h : a + b = n) (g : Fin n → EReal) :
    ∑ k, g k = (∑ l : Fin a, g ⟨l.val, by omega⟩) + ∑ l : Fin b, g ⟨a + l.val, by omega⟩ := by
  subst h
  rw [Fin.sum_univ_add]
  rfl

/-- A sum over 8192 terms, accumulated from zero in four consecutive blocks of 2048. -/
theorem sum_four_blocks (f : Fin 8192 → EReal) :
    (((0 + ∑ l : Fin 2048, f ⟨l.val, by omega⟩) + ∑ l : Fin 2048, f ⟨2048 + l.val, by omega⟩)
        + ∑ l : Fin 2048, f ⟨4096 + l.val, by omega⟩) + ∑ l : Fin 2048, f ⟨6144 + l.val, by omega⟩
      = ∑ k : Fin 8192, f k := by
  rw [zero_add, sum_two_blocks 6144 2048 rfl f,
    sum_two_blocks 4096 2048 rfl (fun l : Fin 6144 => f ⟨l.val, by omega⟩),
    sum_two_blocks 2048 2048 rfl (fun l : Fin 4096 => f ⟨l.val, by omega⟩)]

/-! ## The two regions' results as whole arrays

The kernel computes the result in two steps through an intermediate array: the hidden layer from x, w1 and b1
laid out as one row, then the output from the hidden layer, w2 and b2 laid out as one row. -/

/-- A vector laid out as a matrix of one row. -/
def rowOf {n : Nat} (b : (⟨1, ![n]⟩ : Shape).Idx → EReal) : (⟨2, ![1, n]⟩ : Shape).Idx → EReal :=
  fun j => b (ix1 ⟨(j 1).val, idx2_lt1 j⟩)

/-- The hidden layer as an array of the first step's three operands. -/
def hidArr (a0 : (⟨2, ![4096, 2048]⟩ : Shape).Idx → EReal) (a1 : (⟨2, ![2048, 8192]⟩ : Shape).Idx → EReal)
    (a3 : (⟨2, ![1, 8192]⟩ : Shape).Idx → EReal) : (⟨2, ![4096, 8192]⟩ : Shape).Idx → EReal :=
  fun j => max ((∑ l : Fin 2048, a0 (ix2 (⟨(j 0).val, idx2_lt0 j⟩ : Fin 4096) l) * a1 (ix2 l (⟨(j 1).val, idx2_lt1 j⟩ : Fin 8192)))
    + a3 (ix2 (0 : Fin 1) (⟨(j 1).val, idx2_lt1 j⟩ : Fin 8192))) 0

/-- The output as an array of the second step's three operands. -/
def outArr (h : (⟨2, ![4096, 8192]⟩ : Shape).Idx → EReal) (w : (⟨2, ![8192, 2048]⟩ : Shape).Idx → EReal)
    (b : (⟨2, ![1, 2048]⟩ : Shape).Idx → EReal) : (⟨2, ![4096, 2048]⟩ : Shape).Idx → EReal :=
  fun i => Ideal.logistic ((∑ k : Fin 8192, h (ix2 (⟨(i 0).val, idx2_lt0 i⟩ : Fin 4096) k) * w (ix2 k (⟨(i 1).val, idx2_lt1 i⟩ : Fin 2048)))
    + b (ix2 (0 : Fin 1) (⟨(i 1).val, idx2_lt1 i⟩ : Fin 2048)))

/-- The two steps composed are the specification. -/
theorem outArr_hidArr (x : (⟨2, ![4096, 2048]⟩ : Shape).Idx → EReal) (w1 : (⟨2, ![2048, 8192]⟩ : Shape).Idx → EReal)
    (b1 : (⟨1, ![8192]⟩ : Shape).Idx → EReal) (w2 : (⟨2, ![8192, 2048]⟩ : Shape).Idx → EReal)
    (b2 : (⟨1, ![2048]⟩ : Shape).Idx → EReal) :
    outArr (hidArr x w1 (rowOf b1)) w2 (rowOf b2) = result x w1 b1 w2 b2 := by
  funext i
  rfl

end Cert.Spec

end
-- ==== Proof.KernelIdeal.Val0.lean ====
/-
  The first region's output array, over the extended reals.

  The region's 8 × 4 points each write one 512 × 2048 block of the 4096 × 8192 hidden layer back, block (r, s) at
  rows 512 r … and columns 2048 s …; the blocks tile the array, so the array after the region is, index by index,
  the rectified affine form of the matching row of the first operand and column of the second — the body's stored
  value read at the index inside its block.
-/
import proofs.«119786_j49263274885468_1_alg».proof.Proof.KernelIdeal.Reg0
import proofs.«119786_j49263274885468_1_alg».proof.Proof.Payload
import proofs.«119786_j49263274885468_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One block

A 512 × 2048 block whose three operands are cut out of the arrays `a0`, `a1`, `a3` at block row `r` and block
column `s` — rows `512 r + p` of `a0`, columns `2048 s + q` of `a1` and of the one-row `a3` — holds, at `(p, q)`,
the hidden layer of those arrays at `(512 r + p, 2048 s + q)`. -/

theorem block_eq0 (a0 : S4096x2048.Idx → EReal) (a1 : S2048x8192.Idx → EReal) (a3 : S1x8192.Idx → EReal)
    (x0 : Vec Ideal S512x2048 .bf16) (x1 : Vec Ideal S2048x2048 .bf16) (x2 : Vec Ideal S1x2048 .f32)
    (r s : ℕ) (hr : r < 8) (hs : s < 4)
    (h0 : ∀ (p : Fin 512) (l : Fin 2048), x0 (ix2 p l) = a0 (ix2 (⟨512 * r + p.val, by omega⟩ : Fin 4096) l))
    (h1 : ∀ (l : Fin 2048) (q : Fin 2048), x1 (ix2 l q) = a1 (ix2 l (⟨2048 * s + q.val, by omega⟩ : Fin 8192)))
    (h2 : ∀ q : Fin 2048, x2 (ix2 (0 : Fin 1) q) = a3 (ix2 (0 : Fin 1) (⟨2048 * s + q.val, by omega⟩ : Fin 8192)))
    (p : Fin 512) (q : Fin 2048) (j : S4096x8192.Idx)
    (hj0 : (j 0).val = 512 * r + p.val) (hj1 : (j 1).val = 2048 * s + q.val) :
    k0_pay1 (F := Ideal) x0 x1 x2 (ix2 p q) = Cert.Spec.hidArr a0 a1 a3 j := by
  rw [Pay.hidden_apply]
  unfold Cert.Spec.hidArr
  have e0 : (⟨(j 0).val, idx2_lt0 j⟩ : Fin 4096) = ⟨512 * r + p.val, by omega⟩ := Fin.ext hj0
  have e1 : (⟨(j 1).val, idx2_lt1 j⟩ : Fin 8192) = ⟨2048 * s + q.val, by omega⟩ := Fin.ext hj1
  rw [e0, e1, h2]
  simp only [h0, h1]

/-! ## The grid's index maps

Point `t` of the 8 × 4 grid is block row `t / 4` and block column `t % 4`: the first operand's window follows the
block row, the second's and the bias's follow the block column, the result's follows both. -/

theorem hz0 : (![0, 0] : Fin 2 → Nat) = fun _ => 0 := funext fun a => by fin_cases a <;> rfl

theorem idx_facts0 : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-! ## What a point writes back -/

/-- Point `t` writes back block `t` of the hidden layer of the three arrays as the region finds them. -/
theorem flushed_eq0 (c : Dev nD) (t : Fin cfg0.N) :
    (dat0 (F := Ideal) V c).flushed 3 t
      = ((cfg0.win 3).blk t).view.read (Elt Ideal) (Cert.Spec.hidArr (V c main_v0) (V c main_v1) (V c main_v3)) := by
  show (cfg0.win 3).cut (grid0.coords t) ((dat0 V c).after 3 t) = _
  rw [after0_3]
  unfold out0_3
  rw [View.canon_unit_zero hz0]
  simp only [View.ld_unit_zero (S := S512x2048) hz0, View.ld_unit_zero (S := S2048x2048) hz0, View.ld_unit_zero (S := S1x2048) hz0]
  obtain ⟨e00, e01, e10, e11, e20, e21, e30, e31⟩ := idx_facts0 t
  have hN : t.val < 32 := Nat.lt_of_lt_of_eq t.isLt (show cfg0.N = 32 from N_0)
  have h0 : ∀ (p : Fin 512) (l : Fin 2048), (iblk0 V c 0 t : Vec Ideal S512x2048 .bf16) (ix2 p l)
      = (V c main_v0 : S4096x2048.Idx → EReal) (ix2 (⟨512 * (t.val / 4) + p.val, by omega⟩ : Fin 4096) l) := fun p l => by
    show V c main_v0 (((cfg0.win 0).blk t).view.emb (ix2 p l)) = _
    refine congrArg (V c main_v0) (funext fun a => Fin.ext ?_)
    match a with
    | ⟨0, _⟩ => show win0_0.index t (0 : Fin 2) * 512 + 1 * p.val = 512 * (t.val / 4) + p.val; omega
    | ⟨1, _⟩ => show win0_0.index t (1 : Fin 2) * 2048 + 1 * l.val = l.val; omega
  have h1 : ∀ (l : Fin 2048) (q : Fin 2048), (iblk0 V c 1 t : Vec Ideal S2048x2048 .bf16) (ix2 l q)
      = (V c main_v1 : S2048x8192.Idx → EReal) (ix2 l (⟨2048 * (t.val % 4) + q.val, by omega⟩ : Fin 8192)) := fun l q => by
    show V c main_v1 (((cfg0.win 1).blk t).view.emb (ix2 l q)) = _
    refine congrArg (V c main_v1) (funext fun a => Fin.ext ?_)
    match a with
    | ⟨0, _⟩ => show win0_1.index t (0 : Fin 2) * 2048 + 1 * l.val = l.val; omega
    | ⟨1, _⟩ => show win0_1.index t (1 : Fin 2) * 2048 + 1 * q.val = 2048 * (t.val % 4) + q.val; omega
  have h2 : ∀ q : Fin 2048, (iblk0 V c 2 t : Vec Ideal S1x2048 .f32) (ix2 (0 : Fin 1) q)
      = (V c main_v3 : S1x8192.Idx → EReal) (ix2 (0 : Fin 1) (⟨2048 * (t.val % 4) + q.val, by omega⟩ : Fin 8192)) := fun q => by
    show V c main_v3 (((cfg0.win 2).blk t).view.emb (ix2 (0 : Fin 1) q)) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 2048 + 1 * q.val = 2048 * (t.val % 4) + q.val; omega
  funext y
  revert y
  show ∀ y : S512x2048.Idx, k0_pay1 (F := Ideal) (iblk0 V c 0 t) (iblk0 V c 1 t) (iblk0 V c 2 t) y
      = Cert.Spec.hidArr (V c main_v0) (V c main_v1) (V c main_v3) (((cfg0.win 3).blk t).view.emb y)
  intro y
  obtain ⟨p, q, rfl⟩ : ∃ (p : Fin 512) (q : Fin 2048), y = ix2 p q := ⟨y 0, y 1, eq_ix2 y⟩
  refine block_eq0 _ _ _ _ _ _ (t.val / 4) (t.val % 4) (by omega) (by omega) h0 h1 h2 p q _ ?_ ?_
  · show win0_3.index t (0 : Fin 2) * 512 + 1 * p.val = 512 * (t.val / 4) + p.val; omega
  · show win0_3.index t (1 : Fin 2) * 2048 + 1 * q.val = 2048 * (t.val % 4) + q.val; omega

/-! ## The blocks tile the array -/

/-- An index of the array is in point `t`'s block iff each coordinate is in the block's range on its axis. -/
theorem mem_blk0 (t : Fin cfg0.N) (i : S4096x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- Index `(i, j)` of the array lies in the block of point `4 (i / 512) + j / 2048`. -/
theorem cover0 (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  have hlt : 4 * ((i 0).val / 512) + (i 1).val / 2048 < cfg0.N := by rw [show cfg0.N = 32 from N_0]; omega
  refine ⟨⟨4 * ((i 0).val / 512) + (i 1).val / 2048, hlt⟩, flush0_3 _, ?_⟩
  obtain ⟨-, -, -, -, -, -, e30, e31⟩ := idx_facts0 ⟨4 * ((i 0).val / 512) + (i 1).val / 2048, hlt⟩
  rw [mem_blk0]
  intro a
  match a with
  | ⟨0, _⟩ =>
    show win0_3.index ⟨4 * ((i 0).val / 512) + (i 1).val / 2048, hlt⟩ (0 : Fin 2) * 512 ≤ (i 0).val
      ∧ (i 0).val < win0_3.index ⟨4 * ((i 0).val / 512) + (i 1).val / 2048, hlt⟩ (0 : Fin 2) * 512 + 512
    rw [e30]; show (4 * ((i 0).val / 512) + (i 1).val / 2048) / 4 * 512 ≤ (i 0).val ∧ (i 0).val < (4 * ((i 0).val / 512) + (i 1).val / 2048) / 4 * 512 + 512
    omega
  | ⟨1, _⟩ =>
    show win0_3.index ⟨4 * ((i 0).val / 512) + (i 1).val / 2048, hlt⟩ (1 : Fin 2) * 2048 ≤ (i 1).val
      ∧ (i 1).val < win0_3.index ⟨4 * ((i 0).val / 512) + (i 1).val / 2048, hlt⟩ (1 : Fin 2) * 2048 + 2048
    rw [e31]; show (4 * ((i 0).val / 512) + (i 1).val / 2048) % 4 * 2048 ≤ (i 1).val ∧ (i 1).val < (4 * ((i 0).val / 512) + (i 1).val / 2048) % 4 * 2048 + 2048
    omega

/-! ## The array after the region -/

/-- After the region the hidden layer's array is `Cert.Spec.hidArr` of the three arrays the region reads. -/
theorem final0 (c : Dev nD) :
    (dat0 (F := Ideal) V c).arrAt 3 cfg0.N = Cert.Spec.hidArr (V c main_v0) (V c main_v1) (V c main_v3) := by
  exact (dat0 V c).arrAt_eq_of_cover 3 (Cert.Spec.hidArr (V c main_v0) (V c main_v1) (V c main_v3))
    (fun t _ => flushed_eq0 V c t) cover0

end Cert.KernelIdeal.Val

end
-- ==== Proof.KernelIdeal.Val1a.lean ====
/-
  What each case of the second region's body leaves, as values: the running sum after a point is the block's
  partial product added to what it held (to zero in the first case), and the output block stored in the last
  case is the logistic function of that sum plus the bias block. For any float instance.
-/
import proofs.«119786_j49263274885468_1_alg».proof.Proof.Gen.KernelIdeal.Launch
import proofs.«119786_j49263274885468_1_alg».proof.Proof.Gen.KernelIdeal.Skeleton
import proofs.«119786_j49263274885468_1_alg».proof.Proof.Gen.KernelIdeal.Points
import proofs.«119786_j49263274885468_1_alg».proof.Proof.KernelIdeal.Reg1b
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body is at the zero offset of its buffer. -/
theorem offs_zero : (![0, 0] : Fin 2 → Nat) = fun _ => 0 := funext fun a => by fin_cases a <;> rfl

/-- First case: the sum restarts from zero. -/
theorem sout1_A_eq (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .bf16) (x1 : Vec F S2048x1024 .bf16) :
    sout1_A c i arg3 harg3 arg4 harg4 arg5 harg5 arg6 harg6 arg7 harg7 hc0 hc1 x0 x1 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1)]
  unfold kernelRun1_A
  dsimp only
  sl_unfold_words
  rw [View.canon_cons_unit_zero (S := S512x1024) offs_zero, View.readCov_unit_zero (S := S512x1024) _ offs_zero]
  simp only [View.readAt_eq_ld, harg3.read_unread, harg4.read_unread, View.ld_unit_zero (S := S512x2048) offs_zero, View.ld_unit_zero (S := S2048x1024) offs_zero]

/-- Middle case: the block's product added to what the sum held. -/
theorem sout1_B_eq (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .bf16) (x1 : Vec F S2048x1024 .bf16) (xs : Vec F S512x1024 .f32) :
    sout1_B c i arg3 harg3 arg4 harg4 arg5 harg5 arg6 harg6 arg7 harg7 hc0 hc1 x0 x1 xs = k1_pay2 x0 x1 xs := by
  unfold sout1_B
  rw [View.read_writes_eq_canon _ _ _ (scover1_B c i arg3 harg3 arg4 harg4 arg5 harg5 arg6 harg6 arg7 harg7 hc0 hc1 x0 x1 xs)]
  unfold kernelRun1_B
  dsimp only
  sl_unfold_words
  rw [View.canon_unit_zero offs_zero]
  simp only [View.readAt_eq_ld, harg3.read_unread, harg4.read_unread, harg7.read_unread, View.ld_unit_zero (S := S512x2048) offs_zero, View.ld_unit_zero (S := S2048x1024) offs_zero, View.ld_unit_zero (S := S512x1024) offs_zero]

/-- Last case: the same for the sum, -/
theorem sout1_C_eq (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) :
    sout1_C c i arg3 harg3 arg4 harg4 arg5 harg5 arg6 harg6 arg7 harg7 hc0 hc1 x0 x1 x2 xs = k1_pay2 x0 x1 xs := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  rw [View.canon_unit_zero offs_zero]
  simp only [View.readAt_eq_ld, harg3.read_unread, harg4.read_unread, harg7.read_unread, View.ld_unit_zero (S := S512x2048) offs_zero, View.ld_unit_zero (S := S2048x1024) offs_zero, View.ld_unit_zero (S := S512x1024) offs_zero]

/-- and the output block is the logistic function of the new sum plus the bias. -/
theorem out1_C_eq (c : Dev nD) (i : grid1.Coords) (arg3 : Memref sig .tc .vmem S512x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .bf16) (x1 : Vec F S2048x1024 .bf16) (x2 : Vec F S1x1024 .f32) (xs : Vec F S512x1024 .f32) :
    out1_C c i arg3 harg3 arg4 harg4 arg5 harg5 arg6 harg6 arg7 harg7 hc0 hc1 x0 x1 x2 xs = k1_pay3 (k1_pay2 x0 x1 xs) x2 := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  sl_unfold_words
  rw [View.canon_unit_zero offs_zero]
  simp only [View.readAt_eq_ld, harg3.read_unread, harg4.read_unread, harg5.read_unread, harg7.read_unread, View.readCov_unit_zero (S := S512x1024) _ offs_zero, View.ld_unit_zero (S := S512x2048) offs_zero, View.ld_unit_zero (S := S2048x1024) offs_zero, View.ld_unit_zero (S := S512x1024) offs_zero, View.ld_unit_zero (S := S1x1024) offs_zero]

end Cert.KernelIdeal.Val

end
-- ==== Proof.KernelIdeal.Val1.lean ====
/-
  The second region's output array, over the extended reals.

  The running sum after the last of four consecutive points is zero plus the four blocks' partial products, one
  after the other; the output block stored there is the logistic function of that sum plus the bias. The blocks
  written back (one per 512 rows and 1024 columns, at the last of each four points) tile the 4096 × 2048 output, and
  a sum over 8192 hidden units is the sum of its four consecutive partial sums of 2048, so the array after the
  region is, index by index, the logistic function of the full product's entry plus the bias.
-/
import proofs.«119786_j49263274885468_1_alg».proof.Proof.KernelIdeal.Reg1b
import proofs.«119786_j49263274885468_1_alg».proof.Proof.KernelIdeal.Val1a
import proofs.«119786_j49263274885468_1_alg».proof.Proof.Payload
import proofs.«119786_j49263274885468_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three input blocks at a point. -/
abbrev hblk1 (c : Dev nD) (t : Fin cfg1.N) : Vec Ideal S512x2048 .bf16 := iblk1 V c 0 t
abbrev wblk1 (c : Dev nD) (t : Fin cfg1.N) : Vec Ideal S2048x1024 .bf16 := iblk1 V c 1 t
abbrev bblk1 (c : Dev nD) (t : Fin cfg1.N) : Vec Ideal S1x1024 .f32 := iblk1 V c 2 t

/-- The three arrays the region reads. -/
abbrev harr1 (c : Dev nD) : Vec Ideal S4096x8192 .bf16 := V c main_v5
abbrev warr1 (c : Dev nD) : Vec Ideal S8192x2048 .bf16 := V c main_v2
abbrev barr1 (c : Dev nD) : Vec Ideal S1x2048 .f32 := V c main_v4

/-- The point before. -/
abbrev prev1 (t : Fin cfg1.N) : Fin cfg1.N := ⟨t.val - 1, Nat.lt_of_le_of_lt (Nat.sub_le _ _) t.isLt⟩

theorem snd_A1 (c : Dev nD) (t : Fin cfg1.N) (h0 : t.val % 4 = 0) :
    (outsAt1 V c t.val t.isLt).2 = k1_pay2 (hblk1 V c t) (wblk1 V c t) (k1_pay1 (F := Ideal)) := by
  rw [outsAt1_A V c t h0]
  dsimp only
  exact sout1_A_eq (F := Ideal) c (grid1.coords t) (ms1_0 t) (hs1_0 t) (ms1_1 t) (hs1_1 t) (ms1_2 t) (hs1_2 t) (ms1_3 t) (hs1_3 t) scM (Memref.isWhole_whole _) (cA0 t h0) (cA1 t h0) (hblk1 V c t) (wblk1 V c t)

theorem snd_B1 (c : Dev nD) (t : Fin cfg1.N) (h0 : ¬t.val % 4 = 0) (h1 : ¬t.val % 4 = 3) :
    (outsAt1 V c t.val t.isLt).2 = k1_pay2 (hblk1 V c t) (wblk1 V c t) (outsAt1 V c (prev1 t).val (prev1 t).isLt).2 := by
  rw [outsAt1_B V c t h0 h1]
  dsimp only
  exact sout1_B_eq (F := Ideal) c (grid1.coords t) (ms1_0 t) (hs1_0 t) (ms1_1 t) (hs1_1 t) (ms1_2 t) (hs1_2 t) (ms1_3 t) (hs1_3 t) scM (Memref.isWhole_whole _) (cN0 t h0) (cN1 t h1) (hblk1 V c t) (wblk1 V c t) (outsAt1 V c (prev1 t).val (prev1 t).isLt).2

theorem fst_C1 (c : Dev nD) (t : Fin cfg1.N) (h0 : ¬t.val % 4 = 0) (h1 : t.val % 4 = 3) :
    (outsAt1 V c t.val t.isLt).1 = k1_pay3 (k1_pay2 (hblk1 V c t) (wblk1 V c t) (outsAt1 V c (prev1 t).val (prev1 t).isLt).2) (bblk1 V c t) := by
  rw [outsAt1_C V c t h0 h1]
  dsimp only
  exact out1_C_eq (F := Ideal) c (grid1.coords t) (ms1_0 t) (hs1_0 t) (ms1_1 t) (hs1_1 t) (ms1_2 t) (hs1_2 t) (ms1_3 t) (hs1_3 t) scM (Memref.isWhole_whole _) (cN0 t h0) (cC1 t h1) (hblk1 V c t) (wblk1 V c t) (bblk1 V c t) (outsAt1 V c (prev1 t).val (prev1 t).isLt).2

/-- At the last of four points the output block is the logistic payload of the four blocks' running sum from zero. -/
theorem fst_last1 (c : Dev nD) (t : Fin cfg1.N) (h3 : t.val % 4 = 3) :
    (outsAt1 V c t.val t.isLt).1
      = k1_pay3 (k1_pay2 (hblk1 V c t) (wblk1 V c t) (k1_pay2 (hblk1 V c (prev1 t)) (wblk1 V c (prev1 t))
          (k1_pay2 (hblk1 V c (prev1 (prev1 t))) (wblk1 V c (prev1 (prev1 t)))
            (k1_pay2 (hblk1 V c (prev1 (prev1 (prev1 t)))) (wblk1 V c (prev1 (prev1 (prev1 t)))) (k1_pay1 (F := Ideal)))))) (bblk1 V c t) := by
  have a0 : ¬t.val % 4 = 0 := by omega
  have b0 : ¬(prev1 t).val % 4 = 0 := by dsimp only; omega
  have b1 : ¬(prev1 t).val % 4 = 3 := by dsimp only; omega
  have c0 : ¬(prev1 (prev1 t)).val % 4 = 0 := by dsimp only; omega
  have c1 : ¬(prev1 (prev1 t)).val % 4 = 3 := by dsimp only; omega
  have d0 : (prev1 (prev1 (prev1 t))).val % 4 = 0 := by dsimp only; omega
  rw [fst_C1 V c t a0 h3, snd_B1 V c (prev1 t) b0 b1, snd_B1 V c (prev1 (prev1 t)) c0 c1, snd_A1 V c (prev1 (prev1 (prev1 t))) d0]

/-- The block indices of the four windows at a point, decided over the grid. -/
theorem idx_facts1 : ∀ t : Fin cfg1.N,
    win1_0.index t (0 : Fin 2) = t.val / 8 ∧ win1_0.index t (1 : Fin 2) = t.val % 4
    ∧ win1_1.index t (0 : Fin 2) = t.val % 4 ∧ win1_1.index t (1 : Fin 2) = t.val / 4 % 2
    ∧ win1_2.index t (0 : Fin 2) = 0 ∧ win1_2.index t (1 : Fin 2) = t.val / 4 % 2
    ∧ win1_3.index t (0 : Fin 2) = t.val / 8 ∧ win1_3.index t (1 : Fin 2) = t.val / 4 % 2 :=
  (by decide +kernel : ∀ t : Fin grid1.N, _)

/-- The hidden layer's block at a point reads the hidden layer's array at the block's offset. -/
theorem hblk_apply1 (c : Dev nD) (t : Fin cfg1.N) (p : Fin 512) (l : Fin 2048) (P : Fin 4096) (K : Fin 8192)
    (hP : P.val = 512 * (t.val / 8) + p.val) (hK : K.val = 2048 * (t.val % 4) + l.val) :
    hblk1 V c t (ix2 p l) = harr1 V c (ix2 P K) := by
  obtain ⟨e0, e1, -⟩ := idx_facts1 t
  unfold hblk1 iblk1
  rw [View.read_apply]
  show V c main_v5 (((cfg1.win 0).blk t).view.emb (ix2 p l)) = V c main_v5 (ix2 P K)
  congr 1
  funext a
  apply Fin.ext
  match a with
  | ⟨0, _⟩ => show win1_0.index t (0 : Fin 2) * 512 + 1 * p.val = P.val; omega
  | ⟨1, _⟩ => show win1_0.index t (1 : Fin 2) * 2048 + 1 * l.val = K.val; omega

theorem wblk_apply1 (c : Dev nD) (t : Fin cfg1.N) (l : Fin 2048) (q : Fin 1024) (K : Fin 8192) (Q : Fin 2048)
    (hK : K.val = 2048 * (t.val % 4) + l.val) (hQ : Q.val = 1024 * (t.val / 4 % 2) + q.val) :
    wblk1 V c t (ix2 l q) = warr1 V c (ix2 K Q) := by
  obtain ⟨-, -, e0, e1, -⟩ := idx_facts1 t
  unfold wblk1 iblk1
  rw [View.read_apply]
  show V c main_v2 (((cfg1.win 1).blk t).view.emb (ix2 l q)) = V c main_v2 (ix2 K Q)
  congr 1
  funext a
  apply Fin.ext
  match a with
  | ⟨0, _⟩ => show win1_1.index t (0 : Fin 2) * 2048 + 1 * l.val = K.val; omega
  | ⟨1, _⟩ => show win1_1.index t (1 : Fin 2) * 1024 + 1 * q.val = Q.val; omega

theorem bblk_apply1 (c : Dev nD) (t : Fin cfg1.N) (q : Fin 1024) (Q : Fin 2048)
    (hQ : Q.val = 1024 * (t.val / 4 % 2) + q.val) :
    bblk1 V c t (ix2 (0 : Fin 1) q) = barr1 V c (ix2 (0 : Fin 1) Q) := by
  obtain ⟨-, -, -, -, e0, e1, -⟩ := idx_facts1 t
  unfold bblk1 iblk1
  rw [View.read_apply]
  show V c main_v4 (((cfg1.win 2).blk t).view.emb (ix2 (0 : Fin 1) q)) = V c main_v4 (ix2 (0 : Fin 1) Q)
  congr 1
  funext a
  apply Fin.ext
  match a with
  | ⟨0, _⟩ => show win1_2.index t (0 : Fin 2) * 1 + 1 * 0 = 0; omega
  | ⟨1, _⟩ => show win1_2.index t (1 : Fin 2) * 1024 + 1 * q.val = Q.val; omega

/-- Four blocks' partial products added one after the other from zero, then the bias and the logistic function,
    at an index. -/
theorem pay_apply1 (h0 h1 h2 h3 : Vec Ideal S512x2048 .bf16) (w0 w1 w2 w3 : Vec Ideal S2048x1024 .bf16)
    (b : Vec Ideal S1x1024 .f32) (p : Fin 512) (q : Fin 1024) :
    k1_pay3 (F := Ideal) (k1_pay2 h3 w3 (k1_pay2 h2 w2 (k1_pay2 h1 w1 (k1_pay2 h0 w0 (k1_pay1 (F := Ideal)))))) b (ix2 p q)
      = Ideal.logistic (((((0 + ∑ l : Fin 2048, h0 (ix2 p l) * w0 (ix2 l q)) + ∑ l : Fin 2048, h1 (ix2 p l) * w1 (ix2 l q))
          + ∑ l : Fin 2048, h2 (ix2 p l) * w2 (ix2 l q)) + ∑ l : Fin 2048, h3 (ix2 p l) * w3 (ix2 l q)) + b (ix2 (0 : Fin 1) q)) := by
  rw [Pay.out_apply, Pay.acc_apply, Pay.acc_apply, Pay.acc_apply, Pay.acc_apply, Pay.zero_apply]

/-- One point's partial product, over the two arrays: the hidden units it sums over are the 2048 of its block. -/
theorem part_sum1 (c : Dev nD) (s : Fin cfg1.N) (p : Fin 512) (q : Fin 1024) (P : Fin 4096) (Q : Fin 2048)
    (K : Fin 2048 → Fin 8192)
    (hP : P.val = 512 * (s.val / 8) + p.val) (hQ : Q.val = 1024 * (s.val / 4 % 2) + q.val)
    (hK : ∀ l : Fin 2048, (K l).val = 2048 * (s.val % 4) + l.val) :
    ∑ l : Fin 2048, hblk1 V c s (ix2 p l) * wblk1 V c s (ix2 l q)
      = ∑ l : Fin 2048, harr1 V c (ix2 P (K l)) * warr1 V c (ix2 (K l) Q) :=
  Finset.sum_congr rfl fun l _ => by
    rw [hblk_apply1 V c s p l P (K l) hP (hK l), wblk_apply1 V c s l q (K l) Q (hK l) hQ]

/-- The output block stored at the last of four points is the output array's block there. -/
theorem blk_out1 (c : Dev nD) (t : Fin cfg1.N) (h3 : t.val % 4 = 3) (p : Fin 512) (q : Fin 1024)
    (i : (⟨2, ![4096, 2048]⟩ : Shape).Idx)
    (hi0 : (i 0).val = 512 * (t.val / 8) + p.val) (hi1 : (i 1).val = 1024 * (t.val / 4 % 2) + q.val) :
    (outsAt1 V c t.val t.isLt).1 (ix2 p q) = Cert.Spec.outArr (harr1 V c) (warr1 V c) (barr1 V c) i := by
  have hN : cfg1.N = 64 := N_1
  have ht : t.val < 64 := hN ▸ t.isLt
  rw [fst_last1 V c t h3]
  refine (pay_apply1 (hblk1 V c (prev1 (prev1 (prev1 t)))) (hblk1 V c (prev1 (prev1 t))) (hblk1 V c (prev1 t)) (hblk1 V c t)
    (wblk1 V c (prev1 (prev1 (prev1 t)))) (wblk1 V c (prev1 (prev1 t))) (wblk1 V c (prev1 t)) (wblk1 V c t) (bblk1 V c t) p q).trans ?_
  unfold Cert.Spec.outArr
  refine congrArg Ideal.logistic ?_
  refine congrArg₂ (· + ·) ?_ (bblk_apply1 V c t q ⟨(i 1).val, idx2_lt1 i⟩ hi1)
  refine Eq.trans ?_ (Cert.Spec.sum_four_blocks (fun k : Fin 8192 =>
    harr1 V c (ix2 (⟨(i 0).val, idx2_lt0 i⟩ : Fin 4096) k) * warr1 V c (ix2 k (⟨(i 1).val, idx2_lt1 i⟩ : Fin 2048))))
  refine congrArg₂ (· + ·) (congrArg₂ (· + ·) (congrArg₂ (· + ·) (congrArg (0 + ·) ?_) ?_) ?_) ?_
  · exact part_sum1 V c (prev1 (prev1 (prev1 t))) p q ⟨(i 0).val, idx2_lt0 i⟩ ⟨(i 1).val, idx2_lt1 i⟩
      (fun l => ⟨l.val, by omega⟩) (by dsimp only; omega) (by dsimp only; omega) (fun l => by dsimp only; omega)
  · exact part_sum1 V c (prev1 (prev1 t)) p q ⟨(i 0).val, idx2_lt0 i⟩ ⟨(i 1).val, idx2_lt1 i⟩
      (fun l => ⟨2048 + l.val, by omega⟩) (by dsimp only; omega) (by dsimp only; omega) (fun l => by dsimp only; omega)
  · exact part_sum1 V c (prev1 t) p q ⟨(i 0).val, idx2_lt0 i⟩ ⟨(i 1).val, idx2_lt1 i⟩
      (fun l => ⟨4096 + l.val, by omega⟩) (by dsimp only; omega) (by dsimp only; omega) (fun l => by dsimp only; omega)
  · exact part_sum1 V c t p q ⟨(i 0).val, idx2_lt0 i⟩ ⟨(i 1).val, idx2_lt1 i⟩
      (fun l => ⟨6144 + l.val, by omega⟩) (by dsimp only; omega) (by dsimp only; omega) (fun l => by dsimp only; omega)

/-- What the last of four points writes back is its block of the output array. -/
theorem flushed_eq1 (c : Dev nD) (t : Fin cfg1.N) (h3 : t.val % 4 = 3) :
    (dat1 V c).flushed 3 t
      = ((cfg1.win 3).blk t).view.read (Elt Ideal) (Cert.Spec.outArr (V c main_v5) (V c main_v2) (V c main_v4)) := by
  show (cfg1.win 3).cut (grid1.coords t) ((dat1 V c).after 3 t) = _
  rw [after1_3]
  obtain ⟨-, -, -, -, -, -, e0, e1⟩ := idx_facts1 t
  funext y
  obtain ⟨p, q, rfl⟩ : ∃ (p : Fin 512) (q : Fin 1024), y = ix2 p q := ⟨y 0, y 1, eq_ix2 y⟩
  rw [View.read_apply]
  show (outsAt1 V c t.val t.isLt).1 (ix2 p q) = Cert.Spec.outArr (V c main_v5) (V c main_v2) (V c main_v4) (((cfg1.win 3).blk t).view.emb (ix2 p q))
  refine blk_out1 V c t h3 p q _ ?_ ?_
  · show win1_3.index t (0 : Fin 2) * 512 + 1 * p.val = 512 * (t.val / 8) + p.val; omega
  · show win1_3.index t (1 : Fin 2) * 1024 + 1 * q.val = 1024 * (t.val / 4 % 2) + q.val; omega

/-- An index of the output array is in a point's block iff each coordinate is in the block's range on its axis. -/
theorem mem_blk1 (t : Fin cfg1.N) (i : S4096x2048.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v6).slice (win1_3.rect t)).set ↔ _
  rw [View.set_slice_whole, Rect.mem_set_unit]
  exact Iff.rfl

/-- Every index of the output array is in the block of the last of some four points. -/
theorem cover1 (i : S4096x2048.Idx) :
    ∃ t : Fin cfg1.N, (cfg1.win 3).flush t = true ∧ i ∈ ((cfg1.win 3).blk t).view.set := by
  have hN : cfg1.N = 64 := N_1
  have hi0 : (i 0).val < 4096 := (i 0).isLt
  have hi1 : (i 1).val < 2048 := (i 1).isLt
  have hlt : 8 * ((i 0).val / 512) + 4 * ((i 1).val / 1024) + 3 < cfg1.N := by rw [hN]; omega
  refine ⟨⟨8 * ((i 0).val / 512) + 4 * ((i 1).val / 1024) + 3, hlt⟩, (flush1_3 _).mpr (by dsimp only; omega), ?_⟩
  obtain ⟨-, -, -, -, -, -, e0, e1⟩ := idx_facts1 ⟨8 * ((i 0).val / 512) + 4 * ((i 1).val / 1024) + 3, hlt⟩
  rw [mem_blk1]
  intro a
  match a with
  | ⟨0, _⟩ =>
    show win1_3.index ⟨8 * ((i 0).val / 512) + 4 * ((i 1).val / 1024) + 3, hlt⟩ (0 : Fin 2) * 512 ≤ (i 0).val ∧ (i 0).val < win1_3.index ⟨8 * ((i 0).val / 512) + 4 * ((i 1).val / 1024) + 3, hlt⟩ (0 : Fin 2) * 512 + 512
    rw [e0]; dsimp only; omega
  | ⟨1, _⟩ =>
    show win1_3.index ⟨8 * ((i 0).val / 512) + 4 * ((i 1).val / 1024) + 3, hlt⟩ (1 : Fin 2) * 1024 ≤ (i 1).val ∧ (i 1).val < win1_3.index ⟨8 * ((i 0).val / 512) + 4 * ((i 1).val / 1024) + 3, hlt⟩ (1 : Fin 2) * 1024 + 1024
    rw [e1]; dsimp only; omega

/-- After the region the output array is `Cert.Spec.outArr` of the three arrays the region reads. -/
theorem final1 (c : Dev nD) :
    (dat1 (F := Ideal) V c).arrAt 3 cfg1.N = Cert.Spec.outArr (V c main_v5) (V c main_v2) (V c main_v4) :=
  (dat1 V c).arrAt_eq_of_cover 3 (Cert.Spec.outArr (V c main_v5) (V c main_v2) (V c main_v4))
    (fun t ht => flushed_eq1 V c t ((flush1_3 t).mp ht)) cover1

end Cert.KernelIdeal.Val

end
-- ==== Proof.KernelIdeal.HostVal.lean ====
/-
  What the host operations before the first region write, over the extended reals: a change of float format is
  the identity there, and a reshape of a vector of n entries to a matrix of one row lays the entries out along
  the row.
-/
import proofs.«119786_j49263274885468_1_alg».proof.Proof.Gen.KernelIdeal.Launch
import proofs.«119786_j49263274885468_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The buffers' contents after the host operations, on core `c`. -/
abbrev after0 (c : Dev nD) : Valuation τ sig (Elt Ideal) := StableHlo.after (hostOps0 (F := Ideal)) (fun b => m (c, b))

theorem host_v0 (c : Dev nD) : after0 m c (Proc.devRef .tc main_v0) = m ((c : Thread nD τ).loc main_arg0) := by
  -- after the five operations this buffer holds the change of format applied to argument 0; on the extended reals that is the argument itself
  dsimp only [after0, hostOps0]
  after_results
  rfl
theorem host_v1 (c : Dev nD) : after0 m c (Proc.devRef .tc main_v1) = m ((c : Thread nD τ).loc main_arg1) := by
  -- after the five operations this buffer holds the change of format applied to argument 1; on the extended reals that is the argument itself
  dsimp only [after0, hostOps0]
  after_results
  rfl
theorem host_v2 (c : Dev nD) : after0 m c (Proc.devRef .tc main_v2) = m ((c : Thread nD τ).loc main_arg3) := by
  -- after the five operations this buffer holds the change of format applied to argument 3; on the extended reals that is the argument itself
  dsimp only [after0, hostOps0]
  after_results
  rfl
theorem host_v3 (c : Dev nD) : after0 m c (Proc.devRef .tc main_v3) = Cert.Spec.rowOf (m ((c : Thread nD τ).loc main_arg2)) := by
  -- after the five operations this buffer holds the reshape of the vector; at row u (the only row) and column i it reads the vector at i,
  -- since the row-major position of (u, i) in one row of 8192 entries is i
  dsimp only [after0, hostOps0]
  after_results
  funext j
  obtain ⟨u, i, rfl⟩ : ∃ (u : Fin 1) (i : Fin 8192), j = ix2 u i := ⟨j 0, j 1, eq_ix2 j⟩
  exact shapeCast_a_1a_apply (m ((c : Thread nD τ).loc main_arg2)) shapeCasts_S8192_S1x8192 u i
theorem host_v4 (c : Dev nD) : after0 m c (Proc.devRef .tc main_v4) = Cert.Spec.rowOf (m ((c : Thread nD τ).loc main_arg4)) := by
  -- after the five operations this buffer holds the reshape of the vector; at row u (the only row) and column i it reads the vector at i,
  -- since the row-major position of (u, i) in one row of 2048 entries is i
  dsimp only [after0, hostOps0]
  after_results
  funext j
  obtain ⟨u, i, rfl⟩ : ∃ (u : Fin 1) (i : Fin 2048), j = ix2 u i := ⟨j 0, j 1, eq_ix2 j⟩
  exact shapeCast_a_1a_apply (m ((c : Thread nD τ).loc main_arg4)) shapeCasts_S2048_S1x2048 u i

end Cert.KernelIdeal.HostVal

end
-- ==== Proof.RefRead.lean ====
/-
  The reference program computes the specification.

  Its last stage, read index by index through its nineteen host operations, is: two products of matrices (sums over
  2048 and over 8192 terms), two biases broadcast along the rows, a maximum with zero, and the quotient
  1 / (1 + exp (-z)), which is the logistic function of z on the extended reals.
-/
import proofs.«119786_j49263274885468_1_alg».proof.Proof.Gen.ReferenceIdeal.Run
import proofs.«119786_j49263274885468_1_alg».proof.Proof.Gen.ReferenceIdeal.Read
import proofs.«119786_j49263274885468_1_alg».proof.Proof.Spec

noncomputable section

open scoped BigOperators

namespace Cert.RefIs

open Cert.ReferenceIdeal Cert.ReferenceIdeal.Gen Cert.ReferenceIdeal.Read Idealize.ShloMosaic Idealize.ShloMosaic.ValueIdx

/-! ### Where each operation reads its operands

At the output position (p, q) the second product reads row p of the hidden layer and column q of the second weight
matrix, and the second bias is read at q. At the hidden position (p, k) the first product reads row p of the input
and column k of the first weight matrix, and the first bias is read at k. -/

/-- The second product's left operand at (p, q), term k: the hidden layer at (p, k). -/
private theorem left_second (p : Fin 4096) (q : Fin 2048) (k : Fin 8192) : lidx_main_v5 (ix2 p q) k = ix2 p k :=
  funext fun a => Fin.ext (by match a with | ⟨0, _⟩ => rfl | ⟨1, _⟩ => rfl)

/-- The second product's right operand at (p, q), term k: the second weight matrix at (k, q). -/
private theorem right_second (p : Fin 4096) (q : Fin 2048) (k : Fin 8192) : ridx_main_v5 (ix2 p q) k = ix2 k q :=
  funext fun a => Fin.ext (by match a with | ⟨0, _⟩ => rfl | ⟨1, _⟩ => rfl)

/-- The second bias, broadcast first to one row and then along the rows, is read at q. -/
private theorem bias_second (p : Fin 4096) (q : Fin 2048) : idx_main_v6 (idx_main_v7 (ix2 p q)) = ix1 q :=
  funext fun a => Fin.ext (by match a with | ⟨0, _⟩ => rfl)

/-- The first product's left operand at (p, k), term l: the input at (p, l). -/
private theorem left_first (p : Fin 4096) (k : Fin 8192) (l : Fin 2048) : lidx_main_v0 (ix2 p k) l = ix2 p l :=
  funext fun a => Fin.ext (by match a with | ⟨0, _⟩ => rfl | ⟨1, _⟩ => rfl)

/-- The first product's right operand at (p, k), term l: the first weight matrix at (l, k). -/
private theorem right_first (p : Fin 4096) (k : Fin 8192) (l : Fin 2048) : ridx_main_v0 (ix2 p k) l = ix2 l k :=
  funext fun a => Fin.ext (by match a with | ⟨0, _⟩ => rfl | ⟨1, _⟩ => rfl)

/-- The first bias, broadcast first to one row and then along the rows, is read at k. -/
private theorem bias_first (p : Fin 4096) (k : Fin 8192) : idx_main_v1 (idx_main_v2 (ix2 p k)) = ix1 k :=
  funext fun a => Fin.ext (by match a with | ⟨0, _⟩ => rfl)

/-- The single-precision word of the number one is the extended real 1. -/
private theorem one_word : Ideal.ofBits .f32 0x3F800000#32 = 1 := by
  simp [Ideal.ofBits, Ideal.ieee, -EReal.coe_mul]; norm_num

/-- The stage after the rectifier, at (p, k), is the specification's hidden layer: the sum over l of x[p, l] · w1[l, k],
    plus b1[k], compared with the zero word, which is 0. -/
private theorem hidden_at (x0 : (⟨S4096x2048, .f32⟩ : BufTy).Contents (Elt Ideal)) (x1 : (⟨S2048x8192, .f32⟩ : BufTy).Contents (Elt Ideal))
    (x2 : (⟨S8192, .f32⟩ : BufTy).Contents (Elt Ideal)) (p : Fin 4096) (k : Fin 8192) :
    val_main_v4 (F := Ideal) x0 x1 x2 (ix2 p k) = Cert.Spec.hidden x0 x1 x2 p k := by
  unfold Cert.Spec.hidden
  rw [val_main_v4_apply, val_main_v3_apply, val_main_v2_apply, val_main_v1_apply, val_main_v0_apply,
    val_main_call0_v0_apply, val_main_call0_cst_apply, bias_first]
  simp only [left_first, right_first, Ideal.maximumf_def, Ideal.addf_def, Ideal.ofBits_def, Ideal.ofBits_zero_f32]

/-- The reference's result, as a function of its five arguments, is the specification's output array. -/
theorem ref_eq_result (x0 : (⟨S4096x2048, .f32⟩ : BufTy).Contents (Elt Ideal)) (x1 : (⟨S2048x8192, .f32⟩ : BufTy).Contents (Elt Ideal))
    (x2 : (⟨S8192, .f32⟩ : BufTy).Contents (Elt Ideal)) (x3 : (⟨S8192x2048, .f32⟩ : BufTy).Contents (Elt Ideal))
    (x4 : (⟨S2048, .f32⟩ : BufTy).Contents (Elt Ideal)) :
    val_main_v14 (F := Ideal) x0 x1 x2 x3 x4 = Cert.Spec.result x0 x1 x2 x3 x4 := by
  funext i
  obtain ⟨p, q, rfl⟩ : ∃ (p : Fin 4096) (q : Fin 2048), i = ix2 p q := ⟨i 0, i 1, eq_ix2 i⟩
  rw [Cert.Spec.result_ix2]
  unfold Cert.Spec.out
  -- the quotient, the sum with one, the exponential, the negation, the second bias and the second product, outermost first
  rw [val_main_v14_apply, val_main_v13_apply, val_main_v12_apply, val_main_v11_apply, val_main_v10_apply, val_main_v9_apply,
    val_main_v8_apply, val_main_v7_apply, val_main_v6_apply, val_main_v5_apply, val_main_cst_0_apply, val_main_cst_apply,
    bias_second]
  -- each term of the second product is hidden p k · w2[k, q]; both one words are 1
  simp only [left_second, right_second, hidden_at, Ideal.hostDivf_def, Ideal.addf_def, Ideal.hostUnary_exp_def,
    Ideal.hostNegf_def, Ideal.negf_def, Ideal.ofBits_def, one_word]
  -- what is left, 1 / (1 + exp (-z)), is the logistic function of z by definition
  rfl

end Cert.RefIs

end
-- ==== Proof.lean ====
/-
  A two-layer perceptron, out = sigmoid (relu (x · W1 + b1) · W2 + b2), as two pipelined matrix products against
  its plain array formulation.

  The kernel's program lays the inputs out on the host (three changes of float format, two reshapes), computes the
  hidden layer block by block in a first region, and in a second region accumulates the second product over four
  blocks of 2048 hidden units in a buffer of its own before it adds the bias and applies the logistic function.
  Over the extended reals a change of float format is the identity, a product of matrices into a zero accumulator
  is the sum of products, the logistic function is 1 / (1 + exp (-z)) — which is how the reference spells it —, and
  a sum over 8192 terms is the sum of its four partial sums of 2048: so both programs compute
  `Cert.Spec.result` of the five inputs. No finiteness is needed: only commutativity and associativity of the sum.

  The frames (each program terminates, faults nowhere and leaves its inputs as launched) are the run of the host
  operations followed by the two regions, each region's body run at every grid point, for the kernel's two
  programs, and the run of the nineteen host operations for the reference. The idealization rewrote nothing.
-/
import proofs.«119786_j49263274885468_1_alg».proof.Defs
import proofs.«119786_j49263274885468_1_alg».proof.Proof.Gen.Kernel
import proofs.«119786_j49263274885468_1_alg».proof.Proof.Gen.KernelIdeal
import proofs.«119786_j49263274885468_1_alg».proof.Proof.Gen.ReferenceIdeal
import proofs.«119786_j49263274885468_1_alg».proof.Proof.Gen.Pre_finite_inputs
import proofs.«119786_j49263274885468_1_alg».proof.Proof.Kernel.Run
import proofs.«119786_j49263274885468_1_alg».proof.Proof.KernelIdeal.Run
import proofs.«119786_j49263274885468_1_alg».proof.Proof.KernelIdeal.Val0
import proofs.«119786_j49263274885468_1_alg».proof.Proof.KernelIdeal.Val1
import proofs.«119786_j49263274885468_1_alg».proof.Proof.KernelIdeal.HostVal
import proofs.«119786_j49263274885468_1_alg».proof.Proof.RefRead
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The kernel's result is the specification -/

open Cert.KernelIdeal Cert.KernelIdeal.Fr in
/-- What the second region's write-backs leave in the result array: the specification of the five inputs. The
    second region's array is `outArr` of the hidden layer's array, the second weights and the bias row; the hidden
    layer's array is `hidArr` of what the host operations wrote, which are the inputs themselves and the biases as rows. -/
theorem kernel_value (m : (ℓ : Loc Cert.KernelIdeal.nD Cert.KernelIdeal.τ Cert.KernelIdeal.sig) → Buf (Elt Ideal) ℓ) (c : Dev Cert.KernelIdeal.nD) :
    (dat1 (F := Ideal) (V2 m) c).arrAt 3 cfg1.N
      = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Val.final1 (V2 m) c]
  rw [show V2 m c main_v5 = (dat0 (F := Ideal) (V1 m) c).arrAt 3 cfg0.N from W2_arr m c 3, Cert.KernelIdeal.Val.final0 (V1 m) c]
  rw [show V2 m c main_v2 = V1 m c main_v2 from W2_of_ne m c main_v2 (by decide),
    show V2 m c main_v4 = V1 m c main_v4 from W2_of_ne m c main_v4 (by decide)]
  rw [show V1 m c main_v0 = _ from Cert.KernelIdeal.HostVal.host_v0 m c,
    show V1 m c main_v1 = _ from Cert.KernelIdeal.HostVal.host_v1 m c,
    show V1 m c main_v2 = _ from Cert.KernelIdeal.HostVal.host_v2 m c,
    show V1 m c main_v3 = _ from Cert.KernelIdeal.HostVal.host_v3 m c,
    show V1 m c main_v4 = _ from Cert.KernelIdeal.HostVal.host_v4 m c]
  exact Cert.Spec.outArr_hidArr _ _ _ _ _

/-! ## The claims -/

/-- Both programs end with the specification of inputs that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_value m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.RefIs.ref_eq_result,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
